-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x256 : Shape := ⟨2, ![64, 256]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg1 : IVec S2x1000000 32) (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294867296#32
  let main_v24 : IVec S2x1000000 32 := broadcastInDim S2x1000000 ![] bcast_S_S2x1000000 main_c_8
  let main_v25 : IVec S2x1000000 1 := cmpi .sge main_arg1 main_v24
  let main_c_9 : IVec S_ 1 := constantI S_ 1 1#1
  let main_v26 : IVec S_ 1 := (fun x v => Host.reduce IntOp.andi x v reducesTo_S2x1000000_S_d0_1 h_S_) main_v25 main_c_9
  let main_v27 : IVec S_ 1 := andi main_v23 main_v26
  let main_c_10 : IVec S_ 32 := constantI S_ 32 100000#32
  let main_v28 : IVec S2x1000000 32 := broadcastInDim S2x1000000 ![] bcast_S_S2x1000000 main_c_10
  let main_v29 : IVec S2x1000000 1 := cmpi .slt main_arg1 main_v28
  let main_c_11 : IVec S_ 1 := constantI S_ 1 1#1
  let main_v30 : IVec S_ 1 := (fun x v => Host.reduce IntOp.andi x v reducesTo_S2x1000000_S_d0_1 h_S_) main_v29 main_c_11
  let main_v31 : IVec S_ 1 := andi main_v27 main_v30
  main_v31

def fn {F : FTy → Type} [FloatOps F] (main_arg0 : FVec F S100000x64 .f32) (main_arg1 : IVec S2x1000000 32) (main_arg2 : FVec F S64x256 .f32) (main_arg3 : FVec F S64 .f32) (main_arg4 : FVec F S1x64 .f32) (main_arg5 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg1 main_arg5 main_v13 main_v16
-- ==== Kernel.lean ====
abbrev S100000x64 : Shape := ⟨2, ![100000, 64]⟩
abbrev S2x1000000 : Shape := ⟨2, ![2, 1000000]⟩
abbrev S64x256 : Shape := ⟨2, ![64, 256]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x1 : Shape := ⟨2, ![1, 1]⟩
abbrev S1000000x64 : Shape := ⟨2, ![1000000, 64]⟩
abbrev S64x64 : Shape := ⟨2, ![64, 64]⟩
abbrev S64x1 : Shape := ⟨2, ![64, 1]⟩
abbrev S5000x64 : Shape := ⟨2, ![5000, 64]⟩
abbrev S5000x1 : Shape := ⟨2, ![5000, 1]⟩

abbrev nBuf : Space → Nat
  | .hbm => 69
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x256, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1, .i32⟩
  | .hbm, ⟨19, _⟩ => ⟨S_, .i32⟩
  | .hbm, ⟨20, _⟩ => ⟨S1000000x1, .i32⟩
  | .hbm, ⟨21, _⟩ => ⟨S1000000x1, .i1⟩
  | .hbm, ⟨22, _⟩ => ⟨S1x1, .i32⟩
  | .hbm, ⟨23, _⟩ => ⟨S1000000x1, .i32⟩
  | .hbm, ⟨24, _⟩ => ⟨S1000000x1, .i1⟩
  | .hbm, ⟨25, _⟩ => ⟨S1000000x1, .i1⟩
  | .hbm, ⟨26, _⟩ => ⟨S_, .i1⟩
  | .hbm, ⟨27, _⟩ => ⟨S1000000, .i1⟩
  | .hbm, ⟨28, _⟩ => ⟨S1000000x64, .f32⟩
  | .hbm, ⟨29, _⟩ => ⟨S1000000x64, .i1⟩
  | .hbm, ⟨30, _⟩ => ⟨S_, .f32⟩
  | .hbm, ⟨31, _⟩ => ⟨S1000000x64, .f32⟩
  | .hbm, ⟨32, _⟩ => ⟨S1000000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1, .i32⟩
  | .hbm, ⟨42, _⟩ => ⟨S_, .i32⟩
  | .hbm, ⟨43, _⟩ => ⟨S1000000x1, .i32⟩
  | .hbm, ⟨44, _⟩ => ⟨S1000000x1, .i1⟩
  | .hbm, ⟨45, _⟩ => ⟨S1x1, .i32⟩
  | .hbm, ⟨46, _⟩ => ⟨S1000000x1, .i32⟩
  | .hbm, ⟨47, _⟩ => ⟨S1000000x1, .i1⟩
  | .hbm, ⟨48, _⟩ => ⟨S1000000x1, .i1⟩
  | .hbm, ⟨49, _⟩ => ⟨S_, .i1⟩
  | .hbm, ⟨50, _⟩ => ⟨S1000000, .i1⟩
  | .hbm, ⟨51, _⟩ => ⟨S1000000x64, .f32⟩
  | .hbm, ⟨52, _⟩ => ⟨S1000000x64, .i1⟩
  | .hbm, ⟨53, _⟩ => ⟨S_, .f32⟩
  | .hbm, ⟨54, _⟩ => ⟨S1000000x64, .f32⟩
  | .hbm, ⟨55, _⟩ => ⟨S1000000x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S1x64, .f32⟩
  | .hbm, ⟨65, _⟩ => ⟨S64x1, .f32⟩
  | .hbm, ⟨66, _⟩ => ⟨S1x1, .f32⟩
  | .hbm, ⟨67, _⟩ => ⟨S1000000x1, .f32⟩
  | .hbm, ⟨68, _⟩ => ⟨S1000000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S5000x1, .f32⟩
  | .local _ .vmem, ⟨12, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S64x256_S64x64_0_0 : S64x256.Slices ![0, 0] S64x64
  transposes_S64x64_S64x64_1_0 : S64x64.Transposes [1, 0] S64x64
  slices_S64x256_S64x64_0_64 : S64x256.Slices ![0, 64] S64x64
  slices_S64x256_S64x64_0_128 : S64x256.Slices ![0, 128] S64x64
  slices_S64x256_S64x64_0_192 : S64x256.Slices ![0, 192] S64x64
  shapeCasts_S64_S1x64 : S64.ShapeCasts S1x64
  transposes_S1x64_S64x1_1_0 : S1x64.Transposes [1, 0] S64x1
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S1000000x1_S1000000 : S1000000x1.ShapeCasts S1000000
  gather_S100000x64_S1000000x1_S1000000x64_1_0_n_n_0_1_164_wf : GatherDims.WF S100000x64 S1000000x1 S1000000x64 [1] [0] [] [0] [] 1 ![1, 64]
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .f32 = 32 ∨ (Rect.block (s := S1000000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x1.size a ≤ S1000000x1.size a
  hwx0_9 : ∀ i : grid0.Coords, EltTy.bits .f32 = 32 ∨ (Rect.block (s := S1000000x1) S5000x1.size (cc0_transform_9 i) (hinb0_9 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v4) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S5000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x256 : Shape := ⟨2, ![64, 256]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x256 : Shape := ⟨2, ![1000000, 256]⟩
abbrev S256x64 : Shape := ⟨2, ![256, 64]⟩
abbrev S64x1 : Shape := ⟨2, ![64, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x256, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1x1000000, .i32⟩
  | .hbm, ⟨7, _⟩ => ⟨S1000000, .i32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S1000000x64, .f32⟩
  | .hbm, ⟨31, _⟩ => ⟨S1000000x256, .f32⟩
  | .hbm, ⟨32, _⟩ => ⟨S256x64, .f32⟩
  | .hbm, ⟨33, _⟩ => ⟨S1000000x64, .f32⟩
  | .hbm, ⟨34, _⟩ => ⟨S1x64, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S1000000x64, .f32⟩
  | .hbm, ⟨39, _⟩ => ⟨S1000000x64, .f32⟩
  | .hbm, ⟨40, _⟩ => ⟨S64x1, .f32⟩
  | .hbm, ⟨41, _⟩ => ⟨S1000000x1, .f32⟩
  | .hbm, ⟨42, _⟩ => ⟨S1x1, .f32⟩
  | .hbm, ⟨43, _⟩ => ⟨S1000000x1, .f32⟩
  | .hbm, ⟨44, _⟩ => ⟨S1000000x1, .f32⟩
  | .hbm, ⟨45, _⟩ => ⟨S1000000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x64_S1000000x64_S1000000x64_S1000000x64_S1000000x256_d1 : Shape.Concatenates [S1000000x64, S1000000x64, S1000000x64, S1000000x64] S1000000x256 1
  transposes_S64x256_S256x64_1_0 : S64x256.Transposes [1, 0] S256x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x64_S1000000x1_S1000000x64_1_0_n_n_0_1_164_wf : GatherDims.WF S100000x64 S1000000x1 S1000000x64 [1] [0] [] [0] [] 1 ![1, 64]
  dot_S1000000x256_S256x64_S1000000x64_1_0_0_1_n_n_wf : DotDims.WF S1000000x256 S256x64 S1000000x64 [1] [0] [0] [1] [] []
  dot_S1000000x64_S64x1_S1000000x1_1_0_0_1_n_n_wf : DotDims.WF S1000000x64 S64x1 S1000000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.LibRowGather.lean ====
/-
  A lookup of table rows by a column of row numbers, `table[ids]`, read at one entry.

  For a table of N rows and D columns and a column of R row numbers (carried as R×1 start indices), the gather
  with offset axis 1, collapsed operand axis 0, start-index map [0], index-vector axis 1 and slice sizes [1, D]
  has at (p, k) the table's entry at row `ids[p]` — read as a signed integer and clamped into [0, N − 1], as every
  start index of a gather is — and column k. Axis 0 of the operand is collapsed, so it carries only the clamped
  start; axis 1 is not in the start-index map, so it carries only the result's offset coordinate k.
-/
import Idealize.ShloMosaic.Lib.ValueIdx

noncomputable section

namespace Cert.LibRowGather

open Idealize.ShloMosaic Idealize.ShloMosaic.ValueIdx

variable {α : Type}

/-- A word read as a signed integer and clamped into the rows 0 … N − 1 of a table. -/
def clampRow (N : Nat) (hN : 0 < N) {w : Nat} (v : BitVec w) : Fin N :=
  ⟨min v.toInt.toNat (N - 1), by omega⟩

/-- Those dimension numbers, for a table [N, D], start indices [R, 1] and a result [R, D]. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE LOOKUP READ AT (p, k): the table at the clamped row number `ids[p, 0]` and column k. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (p : Fin R) (k : Fin D) :
    Host.gather (rowDims N D R wf) x ids (ix2 p k) = x (ix2 (clampRow N hN (ids (ix2 p (0 : Fin 1)))) k) := by
  unfold Host.gather
  congr 1
  funext a
  refine Fin.ext ?_
  match a with
  | ⟨0, _⟩ =>
    show (rowDims N D R wf).start (ix2 p k) ids 0 + (rowDims N D R wf).batchCoord (ix2 p k) 0
        + (rowDims N D R wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 p k) ⟨List.idxOf (0 : Fin 2) (rowDims N D R wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨1, _⟩ =>
    show (rowDims N D R wf).start (ix2 p k) ids 1 + (rowDims N D R wf).batchCoord (ix2 p k) 1
        + (rowDims N D R wf).offCoord (ix2 p k) 1 = k.val
    have hsm : ¬ (1 : Fin 2) ∈ (rowDims N D R wf).startIndexMap :=
      fun h => absurd (congrArg Fin.val (List.mem_singleton.mp h)) Nat.one_ne_zero
    have hk : (1 : Fin 2) ∈ (rowDims N D R wf).sKept :=
      (GatherDims.mem_sKept _ _).mpr ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg hsm, dif_pos hk]
    simp only [Nat.add_zero, Nat.zero_add]
    rfl

end Cert.LibRowGather

end
-- ==== Proof.Spec.lean ====
/-
  The edge score as one function of the six argument arrays, entry by entry, and the regrouping of a sum over
  256 feature columns into four sums over 64.

  An edge p has two endpoints, the node numbers e[0, p] and e[1, p]. A negative node number counts from the end of
  the node table (100000 is added to it); the number is then read signed and clamped into the table's 100000 rows.
  With u and v the two endpoints' rows of h (64 entries each), the edge's 256 features are the four groups
  u, v, |u − v| and u · v. Hidden unit j of the edge is

      max (((∑ₖ uₖ · w1[j, k] + ∑ₖ vₖ · w1[j, 64 + k]) + ∑ₖ |u − v|ₖ · w1[j, 128 + k]) + ∑ₖ (u · v)ₖ · w1[j, 192 + k] + b1[j]) 0

  and the score is ∑ⱼ hiddenⱼ · w2[0, j] + b2[0]. Everything is over the extended reals, where sums and products
  are commutative and associative, so the grouping of the 256 columns needs no finiteness.
-/
import Idealize.ShloMosaic.PureOps.Ideal.Laws
import Idealize.ShloMosaic.Lib.ValueIdx
import proofs.«429740_j44023414784046_1_alg».proof.Proof.LibRowGather

noncomputable section

open scoped BigOperators

namespace Cert.EdgeScore

open Idealize.ShloMosaic Idealize.ShloMosaic.ValueIdx

/-- A node number as the table is indexed: a negative one counts from the end. -/
def wrapNode (x : BitVec 32) : BitVec 32 :=
  Scalar.select (IntOp.cmpi .slt x 0#32) (IntOp.addi x 100000#32) x

/-- The row of the node table a node number reads: read signed, clamped into the 100000 rows. -/
def nodeRow (x : BitVec 32) : Fin 100000 :=
  Cert.LibRowGather.clampRow 100000 (by decide) (wrapNode x)

/-- An index of a matrix is the pair of its two coordinates. -/
theorem ix2_of {n0 n1 : Nat} (i : (⟨2, ![n0, n1]⟩ : Shape).Idx) (a : Fin n0) (b : Fin n1)
    (h0 : (i 0).val = a.val) (h1 : (i 1).val = b.val) : i = ix2 a b :=
  funext fun d => Fin.ext (match d with | ⟨0, _⟩ => h0 | ⟨1, _⟩ => h1)

/-- An index of a vector is its one coordinate. -/
theorem ix1_of {n : Nat} (i : (⟨1, ![n]⟩ : Shape).Idx) (a : Fin n) (h0 : (i 0).val = a.val) : i = ix1 a :=
  funext fun d => Fin.ext (match d with | ⟨0, _⟩ => h0)

/-- Entry k of the row of h that endpoint s (0 or 1) of edge p reads. -/
def endpoint (h : FVec Ideal ⟨2, ![100000, 64]⟩ .f32) (e : IVec ⟨2, ![2, 1000000]⟩ 32)
    (s : Fin 2) (p : Fin 1000000) (k : Fin 64) : EReal :=
  h (ix2 (nodeRow (e (ix2 s p))) k)

/-- |u − v| at entry k of edge p. -/
def absDiff (h : FVec Ideal ⟨2, ![100000, 64]⟩ .f32) (e : IVec ⟨2, ![2, 1000000]⟩ 32)
    (p : Fin 1000000) (k : Fin 64) : EReal :=
  FloatOps.absf (F := Ideal) (φ := .f32) (endpoint h e 0 p k - endpoint h e 1 p k)

/-- u · v at entry k of edge p. -/
def prodUV (h : FVec Ideal ⟨2, ![100000, 64]⟩ .f32) (e : IVec ⟨2, ![2, 1000000]⟩ 32)
    (p : Fin 1000000) (k : Fin 64) : EReal :=
  endpoint h e 0 p k * endpoint h e 1 p k

/-- Hidden unit j of edge p: the four groups' products with their 64 columns of w1, the bias, then the rectifier. -/
def hiddenUnit (h : FVec Ideal ⟨2, ![100000, 64]⟩ .f32) (e : IVec ⟨2, ![2, 1000000]⟩ 32)
    (w1 : FVec Ideal ⟨2, ![64, 256]⟩ .f32) (b1 : FVec Ideal ⟨1, ![64]⟩ .f32) (p : Fin 1000000) (j : Fin 64) : EReal :=
  max ((((∑ k : Fin 64, endpoint h e 0 p k * w1 (ix2 j (⟨k.val, by omega⟩ : Fin 256))
        + ∑ k : Fin 64, endpoint h e 1 p k * w1 (ix2 j (⟨64 + k.val, by omega⟩ : Fin 256)))
        + ∑ k : Fin 64, absDiff h e p k * w1 (ix2 j (⟨128 + k.val, by omega⟩ : Fin 256)))
        + ∑ k : Fin 64, prodUV h e p k * w1 (ix2 j (⟨192 + k.val, by omega⟩ : Fin 256)))
        + b1 (ix1 j))
    (Ideal.ofBits .f32 0x00000000#32)

/-- THE SCORE of edge p. -/
def score (h : FVec Ideal ⟨2, ![100000, 64]⟩ .f32) (e : IVec ⟨2, ![2, 1000000]⟩ 32)
    (w1 : FVec Ideal ⟨2, ![64, 256]⟩ .f32) (b1 : FVec Ideal ⟨1, ![64]⟩ .f32)
    (w2 : FVec Ideal ⟨2, ![1, 64]⟩ .f32) (b2 : FVec Ideal ⟨1, ![1]⟩ .f32) (p : Fin 1000000) : EReal :=
  (∑ j : Fin 64, hiddenUnit h e w1 b1 p j * w2 (ix2 (0 : Fin 1) j)) + b2 (ix1 (0 : Fin 1))

/-- The scores as an array over the edges. -/
def scores (h : FVec Ideal ⟨2, ![100000, 64]⟩ .f32) (e : IVec ⟨2, ![2, 1000000]⟩ 32)
    (w1 : FVec Ideal ⟨2, ![64, 256]⟩ .f32) (b1 : FVec Ideal ⟨1, ![64]⟩ .f32)
    (w2 : FVec Ideal ⟨2, ![1, 64]⟩ .f32) (b2 : FVec Ideal ⟨1, ![1]⟩ .f32) : FVec Ideal ⟨1, ![1000000]⟩ .f32 :=
  fun i => score h e w1 b1 w2 b2 (i 0)

/-- A sum over 256 columns is the sum of its four quarters, taken left to right. -/
theorem sum_quarters {M : Type*} [AddCommMonoid M] (f : Fin 256 → M) :
    ∑ k : Fin 256, f k
      = ((∑ k : Fin 64, f ⟨k.val, by omega⟩ + ∑ k : Fin 64, f ⟨64 + k.val, by omega⟩)
          + ∑ k : Fin 64, f ⟨128 + k.val, by omega⟩) + ∑ k : Fin 64, f ⟨192 + k.val, by omega⟩ := by
  let g : ℕ → M := fun n => if hn : n < 256 then f ⟨n, hn⟩ else 0
  have hg : ∀ (n : ℕ) (hn : n < 256), g n = f ⟨n, hn⟩ := fun n hn => dif_pos hn
  have e0 : ∑ k : Fin 256, f k = ∑ k : Fin 256, g k.val :=
    Finset.sum_congr rfl fun k _ => (hg k.val k.isLt).symm
  have q : ∀ (a : ℕ) (ha : a + 64 ≤ 256),
      ∑ x ∈ Finset.range 64, g (a + x) = ∑ k : Fin 64, f ⟨a + k.val, by omega⟩ := by
    intro a ha
    rw [← Fin.sum_univ_eq_sum_range (fun x => g (a + x)) 64]
    exact Finset.sum_congr rfl fun k _ => hg _ _
  have h4 : ∑ i ∈ Finset.range 256, g i = ∑ i ∈ Finset.range (64 + 64 + 64 + 64), g i := rfl
  rw [e0, Fin.sum_univ_eq_sum_range g 256, h4, Finset.sum_range_add, Finset.sum_range_add, Finset.sum_range_add]
  have q0 := q 0 (by omega)
  simp only [Nat.zero_add] at q0
  rw [q0, q 64 (by omega), q (64 + 64) (by omega), q (64 + 64 + 64) (by omega)]

end Cert.EdgeScore

end
-- ==== Proof.RefValue.lean ====
/-
  The reference's result, read one operation at a time, is the score of Spec.lean.

  The reference looks both endpoints' rows up (wrap a negative node number, then a gather, which clamps), lays
  u, v, |u − v| and u · v side by side as 256 feature columns, multiplies by w1 transposed, adds b1, rectifies,
  multiplies by w2 transposed and adds b2. Column 64 g + k of the features is entry k of group g, so the sum over
  the 256 columns is the sum of the four groups' sums over 64 (Spec.lean's `sum_quarters`), which is how the
  score groups them.
-/
import proofs.«429740_j44023414784046_1_alg».proof.Proof.Gen.ReferenceIdeal.Read
import proofs.«429740_j44023414784046_1_alg».proof.Proof.Spec
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeScore Cert.LibRowGather

/-- The first endpoint's start index at edge p is its wrapped node number. -/
theorem start_u (x1 : IVec S2x1000000 32) (p : Fin 1000000) :
    val_main_v7 (F := Ideal) x1 (ix2 p (0 : Fin 1)) = wrapNode (x1 (ix2 (0 : Fin 2) p)) := by
  rw [val_main_v7_apply, val_main_v6_apply, val_main_v3_apply, val_main_v5_apply, val_main_v2_apply, val_main_c_apply,
    val_main_v4_apply, val_main_c_0_apply, val_main_v1_apply, val_main_v0_apply]
  rw [ix2_of (idx_main_v0 (idx_main_v1 (idx_main_v7 (ix2 p (0 : Fin 1))))) (0 : Fin 2) p rfl
    (Nat.mod_eq_of_lt p.isLt)]
  rfl

/-- The second endpoint's start index at edge p is its wrapped node number. -/
theorem start_v (x1 : IVec S2x1000000 32) (p : Fin 1000000) :
    val_main_v16 (F := Ideal) x1 (ix2 p (0 : Fin 1)) = wrapNode (x1 (ix2 (1 : Fin 2) p)) := by
  rw [val_main_v16_apply, val_main_v15_apply, val_main_v12_apply, val_main_v14_apply, val_main_v11_apply, val_main_c_1_apply,
    val_main_v13_apply, val_main_c_2_apply, val_main_v10_apply, val_main_v9_apply]
  rw [ix2_of (idx_main_v9 (idx_main_v10 (idx_main_v16 (ix2 p (0 : Fin 1))))) (1 : Fin 2) p rfl
    (Nat.mod_eq_of_lt p.isLt)]
  rfl

/-- The first lookup at (p, k) is entry k of the first endpoint's row. -/
theorem read_u (x0 : FVec Ideal S100000x64 .f32) (x1 : IVec S2x1000000 32) (p : Fin 1000000) (k : Fin 64) :
    val_main_v8 (F := Ideal) x0 x1 (ix2 p k) = endpoint x0 x1 0 p k := by
  unfold val_main_v8 endpoint nodeRow
  refine (gather_row_apply (by decide) gather_S100000x64_S1000000x1_S1000000x64_1_0_n_n_0_1_164_wf x0 _ p k).trans ?_
  rw [start_u]

/-- The second lookup at (p, k) is entry k of the second endpoint's row. -/
theorem read_v (x0 : FVec Ideal S100000x64 .f32) (x1 : IVec S2x1000000 32) (p : Fin 1000000) (k : Fin 64) :
    val_main_v17 (F := Ideal) x0 x1 (ix2 p k) = endpoint x0 x1 1 p k := by
  unfold val_main_v17 endpoint nodeRow
  refine (gather_row_apply (by decide) gather_S100000x64_S1000000x1_S1000000x64_1_0_n_n_0_1_164_wf x0 _ p k).trans ?_
  rw [start_v]

/-- |u − v| at (p, k). -/
theorem read_absdiff (x0 : FVec Ideal S100000x64 .f32) (x1 : IVec S2x1000000 32) (p : Fin 1000000) (k : Fin 64) :
    val_main_v19 (F := Ideal) x0 x1 (ix2 p k) = absDiff x0 x1 p k := by
  rw [val_main_v19_apply, val_main_v18_apply, read_u, read_v]
  rfl

/-- u · v at (p, k). -/
theorem read_prod (x0 : FVec Ideal S100000x64 .f32) (x1 : IVec S2x1000000 32) (p : Fin 1000000) (k : Fin 64) :
    val_main_v20 (F := Ideal) x0 x1 (ix2 p k) = prodUV x0 x1 p k := by
  rw [val_main_v20_apply, read_u, read_v]
  rfl

/-- Feature column k of the first quarter is u's entry k. -/
theorem feat_q0 (x0 : FVec Ideal S100000x64 .f32) (x1 : IVec S2x1000000 32) (j : S1000000x256.Idx) (p : Fin 1000000)
    (k : Fin 64) (h0 : (j 0).val = p.val) (h1 : (j 1).val = k.val) :
    val_main_v21 (F := Ideal) x0 x1 j = endpoint x0 x1 0 p k := by
  unfold val_main_v21
  rw [concatenate_apply_piece 1 _ _ j 0 (by simp) S1000000x64 (val_main_v8 (F := Ideal) x0 x1) rfl rfl 0 rfl (ix2 p k)
    (fun b hb => match b with
      | ⟨0, _⟩ => h0.symm
      | ⟨1, _⟩ => absurd rfl hb)
    (by show 0 + k.val = (j 1).val; omega)]
  exact read_u x0 x1 p k

/-- Feature column 64 + k is v's entry k. -/
theorem feat_q1 (x0 : FVec Ideal S100000x64 .f32) (x1 : IVec S2x1000000 32) (j : S1000000x256.Idx) (p : Fin 1000000)
    (k : Fin 64) (h0 : (j 0).val = p.val) (h1 : (j 1).val = 64 + k.val) :
    val_main_v21 (F := Ideal) x0 x1 j = endpoint x0 x1 1 p k := by
  unfold val_main_v21
  rw [concatenate_apply_piece 1 _ _ j 1 (by simp) S1000000x64 (val_main_v17 (F := Ideal) x0 x1) rfl rfl 64 rfl (ix2 p k)
    (fun b hb => match b with
      | ⟨0, _⟩ => h0.symm
      | ⟨1, _⟩ => absurd rfl hb)
    (by show 64 + k.val = (j 1).val; omega)]
  exact read_v x0 x1 p k

/-- Feature column 128 + k is |u − v|'s entry k. -/
theorem feat_q2 (x0 : FVec Ideal S100000x64 .f32) (x1 : IVec S2x1000000 32) (j : S1000000x256.Idx) (p : Fin 1000000)
    (k : Fin 64) (h0 : (j 0).val = p.val) (h1 : (j 1).val = 128 + k.val) :
    val_main_v21 (F := Ideal) x0 x1 j = absDiff x0 x1 p k := by
  unfold val_main_v21
  rw [concatenate_apply_piece 1 _ _ j 2 (by simp) S1000000x64 (val_main_v19 (F := Ideal) x0 x1) rfl rfl 128 rfl (ix2 p k)
    (fun b hb => match b with
      | ⟨0, _⟩ => h0.symm
      | ⟨1, _⟩ => absurd rfl hb)
    (by show 128 + k.val = (j 1).val; omega)]
  exact read_absdiff x0 x1 p k

/-- Feature column 192 + k is (u · v)'s entry k. -/
theorem feat_q3 (x0 : FVec Ideal S100000x64 .f32) (x1 : IVec S2x1000000 32) (j : S1000000x256.Idx) (p : Fin 1000000)
    (k : Fin 64) (h0 : (j 0).val = p.val) (h1 : (j 1).val = 192 + k.val) :
    val_main_v21 (F := Ideal) x0 x1 j = prodUV x0 x1 p k := by
  unfold val_main_v21
  rw [concatenate_apply_piece 1 _ _ j 3 (by simp) S1000000x64 (val_main_v20 (F := Ideal) x0 x1) rfl rfl 192 rfl (ix2 p k)
    (fun b hb => match b with
      | ⟨0, _⟩ => h0.symm
      | ⟨1, _⟩ => absurd rfl hb)
    (by show 192 + k.val = (j 1).val; omega)]
  exact read_prod x0 x1 p k

/-- w1 transposed at (column c, unit j) is w1[j, c]. -/
theorem read_w1T (x2 : FVec Ideal S64x256 .f32) (i : S256x64.Idx) (j : Fin 64) (c : Fin 256)
    (h0 : (i 0).val = c.val) (h1 : (i 1).val = j.val) : val_main_v22 (F := Ideal) x2 i = x2 (ix2 j c) := by
  rw [val_main_v22_apply]
  exact congrArg x2 (ix2_of _ j c h1 h0)

/-- The rectified hidden layer at (p, j) is hidden unit j of edge p. -/
theorem read_hidden (x0 : FVec Ideal S100000x64 .f32) (x1 : IVec S2x1000000 32) (x2 : FVec Ideal S64x256 .f32)
    (x3 : FVec Ideal S64 .f32) (i : S1000000x64.Idx) (p : Fin 1000000) (j : Fin 64)
    (h0 : (i 0).val = p.val) (h1 : (i 1).val = j.val) :
    val_main_v27 (F := Ideal) x0 x1 x2 x3 i = hiddenUnit x0 x1 x2 x3 p j := by
  rw [val_main_v27_apply, val_main_v26_apply, val_main_v23_apply, val_main_v25_apply, val_main_v24_apply,
    val_main_call0_v0_apply, val_main_call0_cst_apply, sum_quarters]
  unfold hiddenUnit
  have hb : x3 (idx_main_v24 (idx_main_v25 i)) = x3 (ix1 j) := congrArg x3 (ix1_of _ j h1)
  rw [hb]
  have s0 : ∀ k : Fin 64, val_main_v21 (F := Ideal) x0 x1 (lidx_main_v23 i ⟨k.val, by omega⟩) * val_main_v22 (F := Ideal) x2 (ridx_main_v23 i ⟨k.val, by omega⟩)
      = endpoint x0 x1 0 p k * x2 (ix2 j (⟨k.val, by omega⟩ : Fin 256)) := fun k => by
    rw [feat_q0 x0 x1 _ p k h0 rfl, read_w1T x2 _ j ⟨k.val, by omega⟩ rfl h1]
  have s1 : ∀ k : Fin 64, val_main_v21 (F := Ideal) x0 x1 (lidx_main_v23 i ⟨64 + k.val, by omega⟩) * val_main_v22 (F := Ideal) x2 (ridx_main_v23 i ⟨64 + k.val, by omega⟩)
      = endpoint x0 x1 1 p k * x2 (ix2 j (⟨64 + k.val, by omega⟩ : Fin 256)) := fun k => by
    rw [feat_q1 x0 x1 _ p k h0 rfl, read_w1T x2 _ j ⟨64 + k.val, by omega⟩ rfl h1]
  have s2 : ∀ k : Fin 64, val_main_v21 (F := Ideal) x0 x1 (lidx_main_v23 i ⟨128 + k.val, by omega⟩) * val_main_v22 (F := Ideal) x2 (ridx_main_v23 i ⟨128 + k.val, by omega⟩)
      = absDiff x0 x1 p k * x2 (ix2 j (⟨128 + k.val, by omega⟩ : Fin 256)) := fun k => by
    rw [feat_q2 x0 x1 _ p k h0 rfl, read_w1T x2 _ j ⟨128 + k.val, by omega⟩ rfl h1]
  have s3 : ∀ k : Fin 64, val_main_v21 (F := Ideal) x0 x1 (lidx_main_v23 i ⟨192 + k.val, by omega⟩) * val_main_v22 (F := Ideal) x2 (ridx_main_v23 i ⟨192 + k.val, by omega⟩)
      = prodUV x0 x1 p k * x2 (ix2 j (⟨192 + k.val, by omega⟩ : Fin 256)) := fun k => by
    rw [feat_q3 x0 x1 _ p k h0 rfl, read_w1T x2 _ j ⟨192 + k.val, by omega⟩ rfl h1]
  simp only [s0, s1, s2, s3]
  rfl

/-- THE REFERENCE'S RESULT IS THE SCORES. -/
theorem result_eq (x0 : FVec Ideal S100000x64 .f32) (x1 : IVec S2x1000000 32) (x2 : FVec Ideal S64x256 .f32)
    (x3 : FVec Ideal S64 .f32) (x4 : FVec Ideal S1x64 .f32) (x5 : FVec Ideal S1 .f32) :
    val_main_v33 (F := Ideal) x0 x1 x2 x3 x4 x5 = scores x0 x1 x2 x3 x4 x5 := by
  funext i
  rw [val_main_v33_apply, val_main_v32_apply, val_main_v29_apply, val_main_v31_apply, val_main_v30_apply]
  unfold scores score
  have hb : x5 (idx_main_v30 (idx_main_v31 (idx_main_v33 i))) = x5 (ix1 (0 : Fin 1)) := congrArg x5 (ix1_of _ 0 rfl)
  rw [hb]
  have s : ∀ j : Fin 64, val_main_v27 (F := Ideal) x0 x1 x2 x3 (lidx_main_v29 (idx_main_v33 i) j)
        * val_main_v28 (F := Ideal) x4 (ridx_main_v29 (idx_main_v33 i) j)
      = hiddenUnit x0 x1 x2 x3 (i 0) j * x4 (ix2 (0 : Fin 1) j) := fun j => by
    rw [read_hidden x0 x1 x2 x3 _ (i 0) j (Nat.div_one _) rfl, val_main_v28_apply]
    exact congrArg (fun z => _ * x4 z) (ix2_of _ (0 : Fin 1) j rfl rfl)
  simp only [s]
  rfl

end Cert.ReferenceIdeal.RefValue

end
-- ==== Proof.PreRead.lean ====
/-
  The precondition read back: what it says of the edge list.

  The precondition is a conjunction of whole-array tests. Its last two conjuncts test every entry of the edge list
  against −100000 (signed ≥) and against 100000 (signed <); the conjunction being 1 makes each test 1 at every entry.
-/
import proofs.«429740_j44023414784046_1_alg».proof.Pre_finite_inputs
import Idealize.ShloMosaic.Lib.ReduceAll
import Idealize.ShloMosaic.Lib.Pipeline.Value
import Idealize.ShloMosaic.Lib.ValueIdx

noncomputable section

namespace Cert.PreRead

open Cert.Pre_finite_inputs Idealize.ShloMosaic Idealize.ShloMosaic.ValueIdx

variable [Cert.Pre_finite_inputs.Facts]
open Cert.Pre_finite_inputs.Facts

instance : Subsingleton S_.Idx := ⟨fun a b => funext fun d => d.elim0⟩

/-- A scalar spread over the edge list reads as the scalar. -/
theorem spread_apply (w : BitVec 32) (i : S2x1000000.Idx) :
    broadcastInDim S2x1000000 ![] bcast_S_S2x1000000 (constantI S_ 32 w) i = w :=
  broadcastInDim_apply _ bcast_S_S2x1000000 (constantI S_ 32 w) i ix0 (fun a => a.elim0)

/-- EVERY NODE NUMBER OF THE EDGE LIST lies in −100000 … 99999. -/
theorem ids_in_range {F : FTy → Type} [FloatOps F] (a0 : FVec F S100000x64 .f32) (a1 : IVec S2x1000000 32)
    (a2 : FVec F S64x256 .f32) (a3 : FVec F S64 .f32) (a4 : FVec F S1x64 .f32) (a5 : FVec F S1 .f32)
    (h : fn (F := F) a0 a1 a2 a3 a4 a5 = fun _ => 1#1) (i : S2x1000000.Idx) :
    (-100000 : ℤ) ≤ (a1 i).toInt ∧ (a1 i).toInt < 100000 := by
  have h0 := congrFun h ix0
  unfold fn at h0
  dsimp only at h0
  unfold fn_part1 at h0
  dsimp only at h0
  obtain ⟨h27, h30⟩ := IntOp.andi_eq_one.1 h0
  obtain ⟨-, h26⟩ := IntOp.andi_eq_one.1 h27
  have hlt := Host.reduce_andi_all _ _ _ _ _ h30 i
  have hge := Host.reduce_andi_all _ _ _ _ _ h26 i
  have hlt' : IntOp.cmpi .slt (a1 i) (100000#32) = 1#1 := by
    rw [← spread_apply 100000#32 i]; exact hlt
  have hge' : IntOp.cmpi .sge (a1 i) (4294867296#32) = 1#1 := by
    rw [← spread_apply 4294867296#32 i]; exact hge
  have e1 : (100000#32 : BitVec 32).toInt = 100000 := by decide
  have e2 : (4294867296#32 : BitVec 32).toInt = -100000 := by decide
  have := IntOp.cmpi_slt.1 hlt'
  have := IntOp.cmpi_sge.1 hge'
  omega

end Cert.PreRead

end
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.KernelBody.lean ====
/-
  What one grid point of the kernel leaves in its output block, entry by entry.

  The body reads two 5000×64 blocks of endpoint rows (x0 for u, x1 for v), four 64×64 blocks of weights, a 1×64 bias
  row, a 64×1 weight column and a 1×1 bias, and stores one 5000×1 column. On the extended reals the changes of
  float format are the identity and a matrix product into the zero accumulator is the plain sum over the contracted
  axis, so row r of the stored column is

      ∑ⱼ max (((∑ₖ x0[r,k]·x2[k,j] + ∑ₖ x1[r,k]·x3[k,j]) + ∑ₖ |x0 − x1|[r,k]·x4[k,j]) + ∑ₖ (x0·x1)[r,k]·x5[k,j] + x6[0,j]) 0 · x7[j,0] + x8[0,0].
-/
import proofs.«429740_j44023414784046_1_alg».proof.Proof.Gen.KernelIdeal.Frame
import proofs.«429740_j44023414784046_1_alg».proof.Proof.LibPlainMatmul
import Idealize.ShloMosaic.Lib.Pipeline.Value
import Idealize.ShloMosaic.Lib.ValueIdx
import Idealize.ShloMosaic.Lib.ValueLayout

noncomputable section

open scoped BigOperators

namespace Cert.KernelIdeal.Body

open Cert.KernelIdeal Cert.KernelIdeal.Gen Idealize.ShloMosaic Idealize.ShloMosaic.ValueIdx

/-- The first layer's dimension numbers are those of a plain 5000×64 by 64×64 product. -/
theorem dot1_plain : dot_S5000x64_S64x64_S5000x64_1_0_0_1_n_n = DotDims.plain 5000 64 64 := rfl

/-- The second layer's dimension numbers are those of a plain 5000×64 by 64×1 product. -/
theorem dot2_plain : dot_S5000x64_S64x1_S5000x1_1_0_0_1_n_n = DotDims.plain 5000 64 1 := rfl

/-- The rectified hidden block at (r, j). -/
theorem pay2_apply (x0 x1 : Vec Ideal S5000x64 .f32) (x2 x3 x4 x5 : Vec Ideal S64x64 .f32) (x6 : Vec Ideal S1x64 .f32)
    (r : Fin 5000) (j : Fin 64) :
    k0_pay2 (F := Ideal) x0 x1 x2 x3 x4 x5 x6 (ix2 r j)
      = max ((((∑ k : Fin 64, x0 (ix2 r k) * x2 (ix2 k j) + ∑ k : Fin 64, x1 (ix2 r k) * x3 (ix2 k j))
          + ∑ k : Fin 64, FloatOps.absf (F := Ideal) (φ := .f32) (x0 (ix2 r k) - x1 (ix2 r k)) * x4 (ix2 k j))
          + ∑ k : Fin 64, (x0 (ix2 r k) * x1 (ix2 r k)) * x5 (ix2 k j))
          + x6 (ix2 (0 : Fin 1) j))
        (Ideal.ofBits .f32 0x00000000#32) := by
  unfold k0_pay2
  simp only [shapeCast_self, dot1_plain]
  rw [truncf_apply, maximumf_apply, addf_apply, addf_apply, addf_apply, addf_apply,
    Cert.LibPlainMatmul.matmul_zero_apply, Cert.LibPlainMatmul.matmul_zero_apply,
    Cert.LibPlainMatmul.matmul_zero_apply, Cert.LibPlainMatmul.matmul_zero_apply,
    broadcastTo_1b_ab_apply]
  rfl

/-- The stored column at row r. -/
theorem pay1_apply (h : FVec Ideal S5000x64 .bf16) (x7 : Vec Ideal S64x1 .f32) (x8 : Vec Ideal S1x1 .f32) (r : Fin 5000) :
    k0_pay1 (F := Ideal) h x7 x8 (ix2 r (0 : Fin 1))
      = (∑ j : Fin 64, h (ix2 r j) * x7 (ix2 j (0 : Fin 1))) + x8 (ix2 (0 : Fin 1) (0 : Fin 1)) := by
  unfold k0_pay1
  simp only [shapeCast_self, dot2_plain]
  rw [addf_apply, Cert.LibPlainMatmul.matmul_zero_apply, broadcastTo_1b_ab_apply]
  rfl

end Cert.KernelIdeal.Body

end
-- ==== Proof.KernelArray.lean ====
/-
  The pallas_call's result array as one function of its nine operand arrays.

  Grid point t reads rows 5000 t … 5000 t + 4999 of the two endpoint arrays and the whole of every weight and bias
  array, and writes rows 5000 t … 5000 t + 4999 of the result column. What it writes at row r of its block is
  KernelBody.lean's sum of the blocks' entries, which are entries of the arrays at row 5000 t + r; so every grid
  point writes its block of ONE function of the arrays, and the 200 blocks cover the 1000000 rows.
-/
import proofs.«429740_j44023414784046_1_alg».proof.Proof.Gen.KernelIdeal.Frame
import proofs.«429740_j44023414784046_1_alg».proof.Proof.KernelBody
import Idealize.ShloMosaic.Lib.Pipeline.Value
import Idealize.ShloMosaic.Lib.ValueIdx

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps, decided over the 200 grid points: the two endpoint windows and the result window
    move down one block of rows per point; every other window stays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row r, column k of point t's block of the first endpoint array is its entry (5000 t + r, k). -/
theorem blk0_apply (c : Dev nD) (t : Fin cfg0.N) (A : Buf (Elt Ideal) ((c : Thread nD τ).loc (Pipeline.arrRef spec0 0)))
    (r : Fin 5000) (k : Fin 64) (i : S1000000x64.Idx)
    (h0 : (i 0).val = t.val * 5000 + r.val) (h1 : (i 1).val = k.val) :
    (((cfg0.win 0).blk t).view.read (Elt Ideal) A : Vec Ideal S5000x64 .f32) (ix2 r k) = (A : S1000000x64.Idx → EReal) i := by
  rw [View.read_apply]
  obtain ⟨⟨e0, e1⟩, -⟩ := idx_facts t
  refine congrArg (A : S1000000x64.Idx → EReal) (funext fun a => Fin.ext ?_)
  match a with
  | ⟨0, _⟩ => show win0_0.index t 0 * 5000 + 1 * r.val = (i 0).val; rw [e0, h0]; omega
  | ⟨1, _⟩ => show win0_0.index t 1 * 64 + 1 * k.val = (i 1).val; rw [e1, h1]; omega

/-- The same for the second endpoint array. -/
theorem blk1_apply (c : Dev nD) (t : Fin cfg0.N) (A : Buf (Elt Ideal) ((c : Thread nD τ).loc (Pipeline.arrRef spec0 1)))
    (r : Fin 5000) (k : Fin 64) (i : S1000000x64.Idx)
    (h0 : (i 0).val = t.val * 5000 + r.val) (h1 : (i 1).val = k.val) :
    (((cfg0.win 1).blk t).view.read (Elt Ideal) A : Vec Ideal S5000x64 .f32) (ix2 r k) = (A : S1000000x64.Idx → EReal) i := by
  rw [View.read_apply]
  obtain ⟨-, ⟨e0, e1⟩, -⟩ := idx_facts t
  refine congrArg (A : S1000000x64.Idx → EReal) (funext fun a => Fin.ext ?_)
  match a with
  | ⟨0, _⟩ => show win0_1.index t 0 * 5000 + 1 * r.val = (i 0).val; rw [e0, h0]; omega
  | ⟨1, _⟩ => show win0_1.index t 1 * 64 + 1 * k.val = (i 1).val; rw [e1, h1]; omega

/-- Every point's block of a weight or bias array is the whole array. -/
theorem blk2_eq (c : Dev nD) (t : Fin cfg0.N) (A : Buf (Elt Ideal) ((c : Thread nD τ).loc (Pipeline.arrRef spec0 2))) :
    (((cfg0.win 2).blk t).view.read (Elt Ideal) A : Vec Ideal S64x64 .f32) = (A : S64x64.Idx → EReal) := by
  funext y
  rw [View.read_apply]
  obtain ⟨-, -, ⟨e0, e1⟩, -⟩ := idx_facts t
  refine congrArg (A : S64x64.Idx → EReal) (funext fun a => Fin.ext ?_)
  match a with
  | ⟨0, _⟩ => show win0_2.index t 0 * 64 + 1 * (y 0).val = (y 0).val; rw [e0]; omega
  | ⟨1, _⟩ => show win0_2.index t 1 * 64 + 1 * (y 1).val = (y 1).val; rw [e1]; omega

theorem blk3_eq (c : Dev nD) (t : Fin cfg0.N) (A : Buf (Elt Ideal) ((c : Thread nD τ).loc (Pipeline.arrRef spec0 3))) :
    (((cfg0.win 3).blk t).view.read (Elt Ideal) A : Vec Ideal S64x64 .f32) = (A : S64x64.Idx → EReal) := by
  funext y
  rw [View.read_apply]
  obtain ⟨-, -, -, ⟨e0, e1⟩, -⟩ := idx_facts t
  refine congrArg (A : S64x64.Idx → EReal) (funext fun a => Fin.ext ?_)
  match a with
  | ⟨0, _⟩ => show win0_3.index t 0 * 64 + 1 * (y 0).val = (y 0).val; rw [e0]; omega
  | ⟨1, _⟩ => show win0_3.index t 1 * 64 + 1 * (y 1).val = (y 1).val; rw [e1]; omega

theorem blk4_eq (c : Dev nD) (t : Fin cfg0.N) (A : Buf (Elt Ideal) ((c : Thread nD τ).loc (Pipeline.arrRef spec0 4))) :
    (((cfg0.win 4).blk t).view.read (Elt Ideal) A : Vec Ideal S64x64 .f32) = (A : S64x64.Idx → EReal) := by
  funext y
  rw [View.read_apply]
  obtain ⟨-, -, -, -, ⟨e0, e1⟩, -⟩ := idx_facts t
  refine congrArg (A : S64x64.Idx → EReal) (funext fun a => Fin.ext ?_)
  match a with
  | ⟨0, _⟩ => show win0_4.index t 0 * 64 + 1 * (y 0).val = (y 0).val; rw [e0]; omega
  | ⟨1, _⟩ => show win0_4.index t 1 * 64 + 1 * (y 1).val = (y 1).val; rw [e1]; omega

theorem blk5_eq (c : Dev nD) (t : Fin cfg0.N) (A : Buf (Elt Ideal) ((c : Thread nD τ).loc (Pipeline.arrRef spec0 5))) :
    (((cfg0.win 5).blk t).view.read (Elt Ideal) A : Vec Ideal S64x64 .f32) = (A : S64x64.Idx → EReal) := by
  funext y
  rw [View.read_apply]
  obtain ⟨-, -, -, -, -, ⟨e0, e1⟩, -⟩ := idx_facts t
  refine congrArg (A : S64x64.Idx → EReal) (funext fun a => Fin.ext ?_)
  match a with
  | ⟨0, _⟩ => show win0_5.index t 0 * 64 + 1 * (y 0).val = (y 0).val; rw [e0]; omega
  | ⟨1, _⟩ => show win0_5.index t 1 * 64 + 1 * (y 1).val = (y 1).val; rw [e1]; omega

theorem blk6_eq (c : Dev nD) (t : Fin cfg0.N) (A : Buf (Elt Ideal) ((c : Thread nD τ).loc (Pipeline.arrRef spec0 6))) :
    (((cfg0.win 6).blk t).view.read (Elt Ideal) A : Vec Ideal S1x64 .f32) = (A : S1x64.Idx → EReal) := by
  funext y
  rw [View.read_apply]
  obtain ⟨-, -, -, -, -, -, ⟨e0, e1⟩, -⟩ := idx_facts t
  refine congrArg (A : S1x64.Idx → EReal) (funext fun a => Fin.ext ?_)
  match a with
  | ⟨0, _⟩ => show win0_6.index t 0 * 1 + 1 * (y 0).val = (y 0).val; rw [e0]; omega
  | ⟨1, _⟩ => show win0_6.index t 1 * 64 + 1 * (y 1).val = (y 1).val; rw [e1]; omega

theorem blk7_eq (c : Dev nD) (t : Fin cfg0.N) (A : Buf (Elt Ideal) ((c : Thread nD τ).loc (Pipeline.arrRef spec0 7))) :
    (((cfg0.win 7).blk t).view.read (Elt Ideal) A : Vec Ideal S64x1 .f32) = (A : S64x1.Idx → EReal) := by
  funext y
  rw [View.read_apply]
  obtain ⟨-, -, -, -, -, -, -, ⟨e0, e1⟩, -⟩ := idx_facts t
  refine congrArg (A : S64x1.Idx → EReal) (funext fun a => Fin.ext ?_)
  match a with
  | ⟨0, _⟩ => show win0_7.index t 0 * 64 + 1 * (y 0).val = (y 0).val; rw [e0]; omega
  | ⟨1, _⟩ => show win0_7.index t 1 * 1 + 1 * (y 1).val = (y 1).val; rw [e1]; omega

theorem blk8_eq (c : Dev nD) (t : Fin cfg0.N) (A : Buf (Elt Ideal) ((c : Thread nD τ).loc (Pipeline.arrRef spec0 8))) :
    (((cfg0.win 8).blk t).view.read (Elt Ideal) A : Vec Ideal S1x1 .f32) = (A : S1x1.Idx → EReal) := by
  funext y
  rw [View.read_apply]
  obtain ⟨-, -, -, -, -, -, -, -, ⟨e0, e1⟩, -⟩ := idx_facts t
  refine congrArg (A : S1x1.Idx → EReal) (funext fun a => Fin.ext ?_)
  match a with
  | ⟨0, _⟩ => show win0_8.index t 0 * 1 + 1 * (y 0).val = (y 0).val; rw [e0]; omega
  | ⟨1, _⟩ => show win0_8.index t 1 * 1 + 1 * (y 1).val = (y 1).val; rw [e1]; omega

/-- Row p of the call's result from row p of the endpoint arrays and the whole weight and bias arrays. -/
def rowValue (A0 A1 : FVec Ideal S1000000x64 .f32) (A2 A3 A4 A5 : FVec Ideal S64x64 .f32) (A6 : FVec Ideal S1x64 .f32)
    (A7 : FVec Ideal S64x1 .f32) (A8 : FVec Ideal S1x1 .f32) (p : Fin 1000000) : EReal :=
  (∑ j : Fin 64,
      max ((((∑ k : Fin 64, A0 (ix2 p k) * A2 (ix2 k j) + ∑ k : Fin 64, A1 (ix2 p k) * A3 (ix2 k j))
          + ∑ k : Fin 64, FloatOps.absf (F := Ideal) (φ := .f32) (A0 (ix2 p k) - A1 (ix2 p k)) * A4 (ix2 k j))
          + ∑ k : Fin 64, (A0 (ix2 p k) * A1 (ix2 p k)) * A5 (ix2 k j))
          + A6 (ix2 (0 : Fin 1) j))
        (Ideal.ofBits .f32 0x00000000#32)
      * A7 (ix2 j (0 : Fin 1)))
    + A8 (ix2 (0 : Fin 1) (0 : Fin 1))

/-- THE CALL'S RESULT as one function of its nine operand arrays. -/
def callValue (A0 A1 : FVec Ideal S1000000x64 .f32) (A2 A3 A4 A5 : FVec Ideal S64x64 .f32) (A6 : FVec Ideal S1x64 .f32)
    (A7 : FVec Ideal S64x1 .f32) (A8 : FVec Ideal S1x1 .f32) : FVec Ideal S1000000x1 .f32 :=
  fun i => rowValue A0 A1 A2 A3 A4 A5 A6 A7 A8 (i 0)

/-- Row r of what the body stores, when rows r of its endpoint blocks are rows p of the endpoint arrays and its
    other blocks are the whole weight and bias arrays. -/
theorem stored_row (x0 x1 : Vec Ideal S5000x64 .f32) (x2 x3 x4 x5 : Vec Ideal S64x64 .f32) (x6 : Vec Ideal S1x64 .f32)
    (x7 : Vec Ideal S64x1 .f32) (x8 : Vec Ideal S1x1 .f32) (A0 A1 : FVec Ideal S1000000x64 .f32)
    (A2 A3 A4 A5 : FVec Ideal S64x64 .f32) (A6 : FVec Ideal S1x64 .f32) (A7 : FVec Ideal S64x1 .f32) (A8 : FVec Ideal S1x1 .f32)
    (r : Fin 5000) (p : Fin 1000000)
    (h0 : ∀ k : Fin 64, x0 (ix2 r k) = A0 (ix2 p k)) (h1 : ∀ k : Fin 64, x1 (ix2 r k) = A1 (ix2 p k))
    (h2 : x2 = A2) (h3 : x3 = A3) (h4 : x4 = A4) (h5 : x5 = A5) (h6 : x6 = A6) (h7 : x7 = A7) (h8 : x8 = A8) :
    k0_pay1 (F := Ideal) (k0_pay2 (F := Ideal) x0 x1 x2 x3 x4 x5 x6) x7 x8 (ix2 r (0 : Fin 1))
      = rowValue A0 A1 A2 A3 A4 A5 A6 A7 A8 p := by
  subst h2 h3 h4 h5 h6 h7 h8
  rw [Cert.KernelIdeal.Body.pay1_apply]
  simp only [Cert.KernelIdeal.Body.pay2_apply, h0, h1]
  rfl

/-- Row r of what point t stores is row 5000 t + r of the call's result. -/
theorem point_row (c : Dev nD) (t : Fin cfg0.N) (r : Fin 5000) (p : Fin 1000000) (hp : p.val = t.val * 5000 + r.val) :
    k0_pay1 (F := Ideal) (k0_pay2 (F := Ideal) (iblk m c 0 t) (iblk m c 1 t) (iblk m c 2 t) (iblk m c 3 t) (iblk m c 4 t)
        (iblk m c 5 t) (iblk m c 6 t)) (iblk m c 7 t) (iblk m c 8 t) (ix2 r (0 : Fin 1))
      = rowValue (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6)) (V m c (Pipeline.arrRef spec0 7)) (V m c (Pipeline.arrRef spec0 8)) p :=
  stored_row _ _ _ _ _ _ _ _ _ _ _ _ _ _ _ _ _ _ r p
    (fun k => blk0_apply c t _ r k (ix2 p k) hp rfl) (fun k => blk1_apply c t _ r k (ix2 p k) hp rfl)
    (blk2_eq c t _) (blk3_eq c t _) (blk4_eq c t _) (blk5_eq c t _) (blk6_eq c t _) (blk7_eq c t _) (blk8_eq c t _)

/-- The call's result at row p is the row's value. -/
theorem callValue_apply (A0 A1 : FVec Ideal S1000000x64 .f32) (A2 A3 A4 A5 : FVec Ideal S64x64 .f32) (A6 : FVec Ideal S1x64 .f32)
    (A7 : FVec Ideal S64x1 .f32) (A8 : FVec Ideal S1x1 .f32) (p : Fin 1000000) :
    callValue A0 A1 A2 A3 A4 A5 A6 A7 A8 (ix2 p (0 : Fin 1)) = rowValue A0 A1 A2 A3 A4 A5 A6 A7 A8 p := rfl

/-- A stored column X is point t's block of a column G when row r of X is row 5000 t + r of G, for every r. -/
theorem cut_read_of_rows (c : Dev nD) (t : Fin cfg0.N) (X : FVec Ideal S5000x1 .f32)
    (G : Buf (Elt Ideal) ((c : Thread nD τ).loc (Pipeline.arrRef spec0 9)))
    (h : ∀ (r : Fin 5000) (p : Fin 1000000), p.val = t.val * 5000 + r.val →
      X (ix2 r (0 : Fin 1)) = (G : S1000000x1.Idx → EReal) (ix2 p (0 : Fin 1))) :
    (cfg0.win 9).cut (grid0.coords t) X = ((cfg0.win 9).blk t).view.read (Elt Ideal) G := by
  funext y
  rw [View.read_apply]
  dsimp only [Pipeline.Window.cut]
  have ht : t.val < 200 := by have := t.isLt; have hN : cfg0.N = 200 := N_0; omega
  obtain ⟨-, -, -, -, -, -, -, -, -, ⟨e0, e1⟩⟩ := idx_facts t
  have hy0 : (y 0).val < 5000 := (y 0).isLt
  have hy1 : (y 1).val < 1 := (y 1).isLt
  have hidx : (cfg0.win 9).xinj (grid0.coords t) y = ix2 (⟨(y 0).val, hy0⟩ : Fin 5000) (0 : Fin 1) :=
    funext fun a => Fin.ext (match a with
      | ⟨0, _⟩ => rfl
      | ⟨1, _⟩ => by show (y 1).val = 0; omega)
  have hemb : (((cfg0.win 9).blk t).view.emb y : S1000000x1.Idx)
      = ix2 (⟨t.val * 5000 + (y 0).val, by omega⟩ : Fin 1000000) (0 : Fin 1) :=
    funext fun a => Fin.ext (match a with
      | ⟨0, _⟩ => by show win0_9.index t 0 * 5000 + 1 * (y 0).val = t.val * 5000 + (y 0).val; rw [e0]; omega
      | ⟨1, _⟩ => by show win0_9.index t 1 * 1 + 1 * (y 1).val = 0; rw [e1]; omega)
  rw [hidx, hemb]
  exact h ⟨(y 0).val, hy0⟩ ⟨t.val * 5000 + (y 0).val, by omega⟩ rfl

/-- WHAT POINT t WRITES BACK is its block of the call's result. -/
theorem flushed_eq (c : Dev nD) (t : Fin cfg0.N) :
    (dats m 0 c).flushed 9 t = ((cfg0.win 9).blk t).view.read (Elt Ideal)
      (callValue (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6)) (V m c (Pipeline.arrRef spec0 7)) (V m c (Pipeline.arrRef spec0 8))) := by
  show (cfg0.win 9).cut (grid0.coords t) ((dats m 0 c).after 9 t) = _
  rw [after0_9]
  unfold out0_9
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  exact cut_read_of_rows c t _ _ fun r p hp => (point_row m c t r p hp).trans (callValue_apply _ _ _ _ _ _ _ _ _ p).symm

end Cert.KernelIdeal.Arr

end
-- ==== Proof.KernelScore.lean ====
/-
  A row of the call's result is the edge's score, when the call's operand arrays are what the program builds them to be:
  the two endpoint arrays hold the endpoints' rows, the four weight blocks are the transposed blocks of w1, the row is
  b1, the column is w2 and the 1×1 array is b2.
-/
import proofs.«429740_j44023414784046_1_alg».proof.Proof.KernelArray
import proofs.«429740_j44023414784046_1_alg».proof.Proof.Spec

noncomputable section

open scoped BigOperators

namespace Cert.KernelIdeal.Arr

open Cert.KernelIdeal Idealize.ShloMosaic Idealize.ShloMosaic.ValueIdx Cert.EdgeScore

theorem rowValue_eq_score (A0 A1 : FVec Ideal S1000000x64 .f32) (A2 A3 A4 A5 : FVec Ideal S64x64 .f32)
    (A6 : FVec Ideal S1x64 .f32) (A7 : FVec Ideal S64x1 .f32) (A8 : FVec Ideal S1x1 .f32)
    (h : FVec Ideal S100000x64 .f32) (e : IVec S2x1000000 32) (w1 : FVec Ideal S64x256 .f32) (b1 : FVec Ideal S64 .f32)
    (w2 : FVec Ideal S1x64 .f32) (b2 : FVec Ideal S1 .f32) (p : Fin 1000000)
    (hA0 : ∀ k : Fin 64, A0 (ix2 p k) = endpoint h e 0 p k) (hA1 : ∀ k : Fin 64, A1 (ix2 p k) = endpoint h e 1 p k)
    (hA2 : ∀ k j : Fin 64, A2 (ix2 k j) = w1 (ix2 j (⟨k.val, by omega⟩ : Fin 256)))
    (hA3 : ∀ k j : Fin 64, A3 (ix2 k j) = w1 (ix2 j (⟨64 + k.val, by omega⟩ : Fin 256)))
    (hA4 : ∀ k j : Fin 64, A4 (ix2 k j) = w1 (ix2 j (⟨128 + k.val, by omega⟩ : Fin 256)))
    (hA5 : ∀ k j : Fin 64, A5 (ix2 k j) = w1 (ix2 j (⟨192 + k.val, by omega⟩ : Fin 256)))
    (hA6 : ∀ j : Fin 64, A6 (ix2 (0 : Fin 1) j) = b1 (ix1 j)) (hA7 : ∀ j : Fin 64, A7 (ix2 j (0 : Fin 1)) = w2 (ix2 (0 : Fin 1) j))
    (hA8 : A8 (ix2 (0 : Fin 1) (0 : Fin 1)) = b2 (ix1 (0 : Fin 1))) :
    rowValue A0 A1 A2 A3 A4 A5 A6 A7 A8 p = score h e w1 b1 w2 b2 p := by
  unfold rowValue score hiddenUnit absDiff prodUV
  simp only [hA0, hA1, hA2, hA3, hA4, hA5, hA6, hA7, hA8]

end Cert.KernelIdeal.Arr

end
-- ==== Proof.HostPrefix.lean ====
/-
  The buffer contents at the launch are the four stretches of host operations before it, run one after the other
  from the launch memory.
-/
import proofs.«429740_j44023414784046_1_alg».proof.Proof.Gen.KernelIdeal.Frame
import Idealize.ShloMosaic.PureOps.Ideal
import Idealize.ShloMosaic.Lib.StableHlo.Run
import Idealize.ShloMosaic.Lib.StableHlo.RunLoop

noncomputable section

namespace Cert.KernelIdeal.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The buffer contents at the launch, stretch by stretch. -/
theorem V0_stretches (c : Dev nD) : V0 m c
    = StableHlo.after hostOps0_3 (StableHlo.after hostOps0_2 (StableHlo.after hostOps0_1 (StableHlo.after hostOps0 (fun b => m (c, b))))) := by
  dsimp only [V0]
  rw [← afterL_eq_after_flatten]
  rfl

/-- A buffer that none of the first three stretches writes holds, before the fourth, what the launch memory holds. -/
theorem before_last (c : Dev nD) (r : Ref sig .tc)
    (h0 : ∀ op ∈ (hostOps0 (F := Ideal)), Proc.devRef (τ := τ) .tc r ∉ op.writes)
    (h1 : ∀ op ∈ (hostOps0_1 (F := Ideal)), Proc.devRef (τ := τ) .tc r ∉ op.writes)
    (h2 : ∀ op ∈ (hostOps0_2 (F := Ideal)), Proc.devRef (τ := τ) .tc r ∉ op.writes) :
    StableHlo.after hostOps0_2 (StableHlo.after hostOps0_1 (StableHlo.after hostOps0 (fun b => m (c, b)))) (Proc.devRef .tc r)
      = m (c, Proc.devRef .tc r) :=
  (StableHlo.after_of_forall_not_mem _ _ h2).trans
    ((StableHlo.after_of_forall_not_mem _ _ h1).trans (StableHlo.after_of_forall_not_mem _ _ h0))

end Cert.KernelIdeal.Host

end
-- ==== Proof.WrapRange.lean ====
/-
  A node number in −100000 … 99999, wrapped, lies in 0 … 99999: a negative one has 100000 added to it (the 32-bit
  sum does not overflow), a non-negative one is kept.
-/
import proofs.«429740_j44023414784046_1_alg».proof.Proof.Spec
import Idealize.ShloMosaic.Lib.Affine

namespace Cert.EdgeScore

open Idealize.ShloMosaic Idealize.ShloMosaic.ValueIdx

theorem wrapNode_range (x : BitVec 32) (h : (-100000 : ℤ) ≤ x.toInt ∧ x.toInt < 100000) :
    (0 : ℤ) ≤ (wrapNode x).toInt ∧ (wrapNode x).toInt ≤ 99999 := by
  have z : (0#32 : BitVec 32).toInt = 0 := by decide
  unfold wrapNode
  by_cases hneg : x.toInt < 0
  · have hc : IntOp.cmpi .slt x 0#32 = 1#1 := IntOp.cmpi_slt.2 (by rw [z]; exact hneg)
    rw [hc, select_one]
    show (0 : ℤ) ≤ (x + 100000#32).toInt ∧ (x + 100000#32).toInt ≤ 99999
    have e : (100000#32 : BitVec 32).toInt = 100000 := by decide
    rw [BitVec.toInt_add, e]
    have hb : (x.toInt + 100000).bmod (2 ^ 32) = x.toInt + 100000 := by
      apply Int.bmod_eq_of_le <;> omega
    rw [hb]; omega
  · have hc : IntOp.cmpi .slt x 0#32 = 0#1 :=
      eq_zero_of_ne_one fun hh => hneg (by have := IntOp.cmpi_slt.1 hh; rwa [z] at this)
    rw [hc, select_zero]
    omega

end Cert.EdgeScore
-- ==== Proof.HostTake.lean ====
/-
  The two endpoint arrays the kernel is launched on, as functions of the node table and the edge list.

  Before the pallas_call the program slices row s of the edge list, and looks the rows of h up with `jnp.take`:
  wrap a negative node number, gather (which clamps), and keep the gathered row only where the wrapped number lies
  in 0 … 99999 — elsewhere the row is filled with the not-a-number pattern. When every node number of the edge list
  lies in −100000 … 99999 the wrapped number always lies in 0 … 99999, the test passes at every edge, and the
  lookup is the plain clamped gather: entry k of endpoint s of edge p, as in Spec.lean.
-/
import proofs.«429740_j44023414784046_1_alg».proof.Proof.Gen.KernelIdeal.Frame
import proofs.«429740_j44023414784046_1_alg».proof.Proof.HostPrefix
import proofs.«429740_j44023414784046_1_alg».proof.Proof.Spec
import proofs.«429740_j44023414784046_1_alg».proof.Proof.WrapRange
import Idealize.ShloMosaic.Lib.StableHlo.Run
import Idealize.ShloMosaic.Lib.StableHlo.RunLoop
import Idealize.ShloMosaic.Lib.Pipeline.Value
import Idealize.ShloMosaic.Lib.ValueIdx
import Idealize.ShloMosaic.Lib.ValueLayout
import Idealize.ShloMosaic.Lib.Affine
import Idealize.ShloMosaic.PureOps.Reduce

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo Cert.EdgeScore Cert.LibRowGather

/-- Row 0 of the edge list as a vector. -/
def ids0 (e : IVec S2x1000000 32) : IVec S1000000 32 :=
  shapeCast S1000000 (extractStridedSlice S1x1000000 ![0, 0] e slices_S2x1000000_S1x1000000_0_0) shapeCasts_S1x1000000_S1000000

/-- Row 1 of the edge list as a vector. -/
def ids1 (e : IVec S2x1000000 32) : IVec S1000000 32 :=
  shapeCast S1000000 (extractStridedSlice S1x1000000 ![1, 0] e slices_S2x1000000_S1x1000000_1_0) shapeCasts_S1x1000000_S1000000

/-- The column of start indices: the node numbers, negative ones wrapped. -/
def startCol (ids : IVec S1000000 32) : IVec S1000000x1 32 :=
  broadcastInDim S1000000x1 ![0] bcast_S1000000_S1000000x1_0
    (select (cmpi .slt ids (broadcastInDim S1000000 ![] bcast_S_S1000000 (constantI S_ 32 0#32)))
      (addi ids (broadcastInDim S1000000 ![] bcast_S_S1000000 (constantI S_ 32 100000#32))) ids)

/-- The range test, edge by edge: 1 where the wrapped node number lies in 0 … 99999. -/
def inTable (ids : IVec S1000000 32) : IVec S1000000 1 :=
  Host.reduce IntOp.andi
    (andi (cmpi .sge (startCol ids) (broadcastInDim S1000000x1 ![] bcast_S_S1000000x1 (constantI S_ 32 0#32)))
      (cmpi .sle (startCol ids) (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-- The lookup of the rows of `h` the node numbers `ids` name. -/
def takeRows (h : FVec Ideal S100000x64 .f32) (ids : IVec S1000000 32) : FVec Ideal S1000000x64 .f32 :=
  select (broadcastInDim S1000000x64 ![0] bcast_S1000000_S1000000x64_0 (inTable ids))
    (Host.gather gather_S100000x64_S1000000x1_S1000000x64_1_0_n_n_0_1_164 h (startCol ids))
    (broadcastInDim S1000000x64 ![] bcast_S_S1000000x64 (constant S_ .f32 0x7FC00000#32))

/-- Contents carried to a buffer's own type and back are the contents. -/
theorem ofBuf_toBuf {T : BufTy} (x : TRef sig T) (v : T.Contents (Elt Ideal)) : x.ofBuf (x.toBuf v) = v := by
  obtain ⟨r, h, hd, hu⟩ := x
  subst h
  rfl

/-- The buffers the lookups read and write, at their types. -/
abbrev tArg0 : TRef sig ⟨S100000x64, .f32⟩ := .of main_arg0
abbrev tV1 : TRef sig ⟨S1000000, .i32⟩ := .of main_v1
abbrev tV3 : TRef sig ⟨S1000000, .i32⟩ := .of main_v3
abbrev tV4 : TRef sig ⟨S1000000x64, .f32⟩ := .of main_v4
abbrev tV5 : TRef sig ⟨S1000000x64, .f32⟩ := .of main_v5

/-- Carrying contents to or from one of these buffers' own types changes nothing. -/
theorem toBuf4 (W : FVec Ideal S1000000x64 .f32) : (tV4.toBuf (Val := Elt Ideal) W : S1000000x64.Idx → EReal) = W := rfl
theorem toBuf5 (W : FVec Ideal S1000000x64 .f32) : (tV5.toBuf (Val := Elt Ideal) W : S1000000x64.Idx → EReal) = W := rfl
theorem ofBuf0 (v : FVec Ideal S100000x64 .f32) : tArg0.ofBuf (Val := Elt Ideal) v = v := rfl
theorem ofBuf1 (v : IVec S1000000 32) : tV1.ofBuf (Val := Elt Ideal) v = v := rfl
theorem ofBuf3 (v : IVec S1000000 32) : tV3.ofBuf (Val := Elt Ideal) v = v := rfl

/-- The lookup's 23 operations, run from any buffer contents X, leave in the call's result buffer the lookup of the
    rows of X's node table that X's node numbers name (the first call's buffers). -/
theorem take0 (X : Valuation τ sig (Elt Ideal)) :
    StableHlo.after hostOps0_1 X (Proc.devRef .tc main_v4)
      = tV4.toBuf (takeRows (tArg0.ofBuf (X (Proc.devRef .tc main_arg0))) (tV1.ofBuf (X (Proc.devRef .tc main_v1)))) := by
  simp only [hostOps0_1]
  after_results_simp
  simp only [ofBuf_toBuf]
  rfl

/-- The same for the second call's buffers. -/
theorem take1 (X : Valuation τ sig (Elt Ideal)) :
    StableHlo.after hostOps0_2 X (Proc.devRef .tc main_v5)
      = tV5.toBuf (takeRows (tArg0.ofBuf (X (Proc.devRef .tc main_arg0))) (tV3.ofBuf (X (Proc.devRef .tc main_v3)))) := by
  simp only [hostOps0_2]
  after_results_simp
  simp only [ofBuf_toBuf]
  rfl

/-- The four operations before the lookups leave row 0 of the edge list in the first call's operand buffer. -/
theorem pre_v1 (X : Valuation τ sig (Elt Ideal)) :
    (StableHlo.after hostOps0 X (Proc.devRef .tc main_v1) : S1000000.Idx → BitVec 32) = ids0 (X (Proc.devRef .tc main_arg1)) := by
  simp only [hostOps0]
  after_results_simp
  rfl

/-- And row 1 in the second call's. -/
theorem pre_v3 (X : Valuation τ sig (Elt Ideal)) :
    (StableHlo.after hostOps0 X (Proc.devRef .tc main_v3) : S1000000.Idx → BitVec 32) = ids1 (X (Proc.devRef .tc main_arg1)) := by
  simp only [hostOps0]
  after_results_simp
  rfl

variable (m : (ℓ : Loc nD τ sig) → Buf (Elt Ideal) ℓ)

/-- The first endpoint array at the launch. -/
theorem v4_eq (c : Dev nD) : (V m c main_v4 : S1000000x64.Idx → EReal)
    = takeRows (m ((c : Thread nD τ).loc main_arg0)) (ids0 (m ((c : Thread nD τ).loc main_arg1))) := by
  show (V0 m c (Proc.devRef .tc main_v4) : S1000000x64.Idx → EReal) = _
  rw [V0_stretches]
  have s3 := StableHlo.after_of_forall_not_mem (b := Proc.devRef .tc main_v4) (hostOps0_3 (F := Ideal))
    (StableHlo.after hostOps0_2 (StableHlo.after hostOps0_1 (StableHlo.after hostOps0 (fun b => m (c, b)))))
    (List.forall_iff_forall_mem.mp (by
      simp only [hostOps0_3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
  have s2 := StableHlo.after_of_forall_not_mem (b := Proc.devRef .tc main_v4) (hostOps0_2 (F := Ideal))
    (StableHlo.after hostOps0_1 (StableHlo.after hostOps0 (fun b => m (c, b))))
    (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
  have s0 := StableHlo.after_of_forall_not_mem (b := Proc.devRef .tc main_arg0) (hostOps0 (F := Ideal)) (fun b => m (c, b))
    (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
  refine (s3.trans s2).trans ((take0 _).trans ?_)
  rw [pre_v1, s0]
  exact (toBuf4 _).trans (congrArg₂ takeRows (ofBuf0 _) (ofBuf1 _))

/-- The second endpoint array at the launch. -/
theorem v5_eq (c : Dev nD) : (V m c main_v5 : S1000000x64.Idx → EReal)
    = takeRows (m ((c : Thread nD τ).loc main_arg0)) (ids1 (m ((c : Thread nD τ).loc main_arg1))) := by
  show (V0 m c (Proc.devRef .tc main_v5) : S1000000x64.Idx → EReal) = _
  rw [V0_stretches]
  have s3 := StableHlo.after_of_forall_not_mem (b := Proc.devRef .tc main_v5) (hostOps0_3 (F := Ideal))
    (StableHlo.after hostOps0_2 (StableHlo.after hostOps0_1 (StableHlo.after hostOps0 (fun b => m (c, b)))))
    (List.forall_iff_forall_mem.mp (by
      simp only [hostOps0_3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
  have s1a := StableHlo.after_of_forall_not_mem (b := Proc.devRef .tc main_arg0) (hostOps0_1 (F := Ideal))
    (StableHlo.after hostOps0 (fun b => m (c, b)))
    (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
  have s1b := StableHlo.after_of_forall_not_mem (b := Proc.devRef .tc main_v3) (hostOps0_1 (F := Ideal))
    (StableHlo.after hostOps0 (fun b => m (c, b)))
    (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
  have s0 := StableHlo.after_of_forall_not_mem (b := Proc.devRef .tc main_arg0) (hostOps0 (F := Ideal)) (fun b => m (c, b))
    (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
  refine s3.trans ((take1 _).trans ?_)
  rw [s1a, s1b, pre_v3, s0]
  exact (toBuf5 _).trans (congrArg₂ takeRows (ofBuf0 _) (ofBuf3 _))

end Cert.KernelIdeal.Host

end
-- ==== Proof.HostRead.lean ====
/-
  The kernel's two endpoint arrays read at an entry, when every node number of the edge list lies in −100000 … 99999.

  The range test of the lookup is a reduction by "and" of two comparisons per edge; each comparison is 1 because the
  wrapped node number lies in 0 … 99999 (WrapRange.lean), so the reduction is 1 at every edge, the selection keeps the
  gathered row, and the gathered row is the node table's row at the clamped wrapped node number.
-/
import proofs.«429740_j44023414784046_1_alg».proof.Proof.HostTake

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo Cert.EdgeScore Cert.LibRowGather

/-- A fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- Row s of the edge list as a vector, at p. -/
theorem ids0_apply (e : IVec S2x1000000 32) (p : Fin 1000000) : ids0 e (ix1 p) = e (ix2 (0 : Fin 2) p) := by
  unfold ids0
  rw [shapeCast_1a_a_apply, slice2_axis0_apply 0 _ _ (0 : Fin 1) p (0 : Fin 2) rfl]

theorem ids1_apply (e : IVec S2x1000000 32) (p : Fin 1000000) : ids1 e (ix1 p) = e (ix2 (1 : Fin 2) p) := by
  unfold ids1
  rw [shapeCast_1a_a_apply, slice2_axis0_apply 1 _ _ (0 : Fin 1) p (1 : Fin 2) rfl]

/-- The start index of edge `i 0` is its wrapped node number. -/
theorem startCol_apply (ids : IVec S1000000 32) (i : S1000000x1.Idx) : startCol ids i = wrapNode (ids (ix1 (i 0))) := by
  unfold startCol
  rw [broadcastInDim_apply _ bcast_S1000000_S1000000x1_0 _ i (ix1 (i 0)) (fun a => match a with
    | ⟨0, _⟩ => by show (i 0).val = if (1000000 : ℕ) = 1 then 0 else (i 0).val; rw [if_neg (by decide)])]
  have z0 : broadcastInDim S1000000 ![] bcast_S_S1000000 (constantI S_ 32 0#32) (ix1 (i 0)) = 0#32 :=
    broadcastInDim_apply _ bcast_S_S1000000 (constantI S_ 32 0#32) _ ix0 (fun a => a.elim0)
  have z1 : broadcastInDim S1000000 ![] bcast_S_S1000000 (constantI S_ 32 100000#32) (ix1 (i 0)) = 100000#32 :=
    broadcastInDim_apply _ bcast_S_S1000000 (constantI S_ 32 100000#32) _ ix0 (fun a => a.elim0)
  show Scalar.select (IntOp.cmpi .slt (ids (ix1 (i 0))) (broadcastInDim S1000000 ![] bcast_S_S1000000 (constantI S_ 32 0#32) (ix1 (i 0))))
      (IntOp.addi (ids (ix1 (i 0))) (broadcastInDim S1000000 ![] bcast_S_S1000000 (constantI S_ 32 100000#32) (ix1 (i 0))))
      (ids (ix1 (i 0))) = _
  rw [z0, z1]
  rfl

/-- The range test passes at every edge. -/
theorem inTable_apply (ids : IVec S1000000 32)
    (hin : ∀ q : Fin 1000000, (-100000 : ℤ) ≤ (ids (ix1 q)).toInt ∧ (ids (ix1 q)).toInt < 100000) (p : S1000000.Idx) :
    inTable ids p = 1#1 := by
  unfold inTable
  rw [Host.reduce_eq_foldl]
  refine foldl_andi_one _ (fun i => ?_) _
  have hz : broadcastInDim S1000000x1 ![] bcast_S_S1000000x1 (constantI S_ 32 0#32) i = 0#32 :=
    broadcastInDim_apply _ bcast_S_S1000000x1 (constantI S_ 32 0#32) _ ix0 (fun a => a.elim0)
  have hn : broadcastInDim S1000000x1 ![0, 1] bcast_S1x1_S1000000x1_0_1
      (broadcastInDim S1x1 ![1] bcast_S1_S1x1_1 (constantI S1 32 99999#32)) i = 99999#32 := by
    rw [broadcastInDim_apply _ bcast_S1x1_S1000000x1_0_1 _ i (ix2 (0 : Fin 1) (0 : Fin 1)) (fun a => match a with
        | ⟨0, _⟩ => by show 0 = if (1 : ℕ) = 1 then 0 else (i 0).val; rw [if_pos rfl]
        | ⟨1, _⟩ => by show 0 = if (1 : ℕ) = 1 then 0 else (i 1).val; rw [if_pos rfl]),
      broadcastInDim_apply _ bcast_S1_S1x1_1 _ (ix2 (0 : Fin 1) (0 : Fin 1)) (ix1 (0 : Fin 1)) (fun a => match a with
        | ⟨0, _⟩ => by show 0 = if (1 : ℕ) = 1 then 0 else 0; rw [if_pos rfl])]
    rfl
  show IntOp.andi (IntOp.cmpi .sge (startCol ids i) (broadcastInDim S1000000x1 ![] bcast_S_S1000000x1 (constantI S_ 32 0#32) i))
      (IntOp.cmpi .sle (startCol ids i) (broadcastInDim S1000000x1 ![0, 1] bcast_S1x1_S1000000x1_0_1
        (broadcastInDim S1x1 ![1] bcast_S1_S1x1_1 (constantI S1 32 99999#32)) i)) = 1#1
  rw [hz, hn, startCol_apply]
  have hr := wrapNode_range _ (hin (i 0))
  have z : (0#32 : BitVec 32).toInt = 0 := by decide
  have n : (99999#32 : BitVec 32).toInt = 99999 := by decide
  exact IntOp.andi_eq_one.2 ⟨IntOp.cmpi_sge.2 (by rw [z]; exact hr.1), IntOp.cmpi_sle.2 (by rw [n]; exact hr.2)⟩

/-- THE LOOKUP AT (p, k): the node table's row at the clamped wrapped node number, column k. -/
theorem takeRows_apply (h : FVec Ideal S100000x64 .f32) (ids : IVec S1000000 32)
    (hin : ∀ q : Fin 1000000, (-100000 : ℤ) ≤ (ids (ix1 q)).toInt ∧ (ids (ix1 q)).toInt < 100000)
    (p : Fin 1000000) (k : Fin 64) :
    takeRows h ids (ix2 p k) = h (ix2 (clampRow 100000 (by decide) (wrapNode (ids (ix1 p)))) k) := by
  unfold takeRows
  rw [select_apply, broadcastInDim_apply _ bcast_S1000000_S1000000x64_0 (inTable ids) (ix2 p k) (ix1 p) (fun a => match a with
    | ⟨0, _⟩ => by show p.val = if (1000000 : ℕ) = 1 then 0 else p.val; rw [if_neg (by decide)]),
    inTable_apply ids hin, select_one]
  refine (gather_row_apply (by decide) gather_S100000x64_S1000000x1_S1000000x64_1_0_n_n_0_1_164_wf h _ p k).trans ?_
  rw [startCol_apply]

variable (m : (ℓ : Loc nD τ sig) → Buf (Elt Ideal) ℓ)

/-- The first endpoint array at (p, k) is entry k of the first endpoint's row. -/
theorem v4_apply (c : Dev nD)
    (hin : ∀ i : S2x1000000.Idx, (-100000 : ℤ) ≤ ((m ((c : Thread nD τ).loc main_arg1) : IVec S2x1000000 32) i).toInt
      ∧ ((m ((c : Thread nD τ).loc main_arg1) : IVec S2x1000000 32) i).toInt < 100000)
    (p : Fin 1000000) (k : Fin 64) :
    (V m c main_v4 : S1000000x64.Idx → EReal) (ix2 p k)
      = endpoint (m ((c : Thread nD τ).loc main_arg0)) (m ((c : Thread nD τ).loc main_arg1)) 0 p k := by
  rw [v4_eq, takeRows_apply _ _ (fun q => by rw [ids0_apply]; exact hin _) p k, ids0_apply]
  rfl

/-- The second endpoint array at (p, k) is entry k of the second endpoint's row. -/
theorem v5_apply (c : Dev nD)
    (hin : ∀ i : S2x1000000.Idx, (-100000 : ℤ) ≤ ((m ((c : Thread nD τ).loc main_arg1) : IVec S2x1000000 32) i).toInt
      ∧ ((m ((c : Thread nD τ).loc main_arg1) : IVec S2x1000000 32) i).toInt < 100000)
    (p : Fin 1000000) (k : Fin 64) :
    (V m c main_v5 : S1000000x64.Idx → EReal) (ix2 p k)
      = endpoint (m ((c : Thread nD τ).loc main_arg0)) (m ((c : Thread nD τ).loc main_arg1)) 1 p k := by
  rw [v5_eq, takeRows_apply _ _ (fun q => by rw [ids1_apply]; exact hin _) p k, ids1_apply]
  rfl

end Cert.KernelIdeal.Host

end
-- ==== Proof.HostWeights.lean ====
/-
  The weight and bias arrays the kernel is launched on, as functions of the arguments, read at an entry.

  Before the pallas_call the program cuts w1 into its four blocks of 64 columns and transposes each, casts b1 to a row,
  transposes w2 into a column and casts b2 to a 1×1 array. So block g of w1, transposed, has at (k, j) the entry
  w1[j, 64 g + k]; the row has b1[j] at (0, j); the column has w2[0, j] at (j, 0); the 1×1 array has b2[0].
-/
import proofs.«429740_j44023414784046_1_alg».proof.Proof.Gen.KernelIdeal.Frame
import proofs.«429740_j44023414784046_1_alg».proof.Proof.HostPrefix
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

/-- The last stretch, run from any buffer contents X, leaves block 0 of X's w1, transposed, in its buffer. -/
theorem w_v7 (X : Valuation τ sig (Elt Ideal)) :
    (StableHlo.after hostOps0_3 X (Proc.devRef .tc main_v7) : S64x64.Idx → EReal)
      = transpose S64x64 [1, 0] (extractStridedSlice S64x64 ![0, 0] (X (Proc.devRef .tc main_arg2)) slices_S64x256_S64x64_0_0) transposes_S64x64_S64x64_1_0 := by
  simp only [hostOps0_3]
  after_results_simp

/-- The last stretch, run from any buffer contents X, leaves block 1 of X's w1, transposed, in its buffer. -/
theorem w_v9 (X : Valuation τ sig (Elt Ideal)) :
    (StableHlo.after hostOps0_3 X (Proc.devRef .tc main_v9) : S64x64.Idx → EReal)
      = transpose S64x64 [1, 0] (extractStridedSlice S64x64 ![0, 64] (X (Proc.devRef .tc main_arg2)) slices_S64x256_S64x64_0_64) transposes_S64x64_S64x64_1_0 := by
  simp only [hostOps0_3]
  after_results_simp

/-- The last stretch, run from any buffer contents X, leaves block 2 of X's w1, transposed, in its buffer. -/
theorem w_v11 (X : Valuation τ sig (Elt Ideal)) :
    (StableHlo.after hostOps0_3 X (Proc.devRef .tc main_v11) : S64x64.Idx → EReal)
      = transpose S64x64 [1, 0] (extractStridedSlice S64x64 ![0, 128] (X (Proc.devRef .tc main_arg2)) slices_S64x256_S64x64_0_128) transposes_S64x64_S64x64_1_0 := by
  simp only [hostOps0_3]
  after_results_simp

/-- The last stretch, run from any buffer contents X, leaves block 3 of X's w1, transposed, in its buffer. -/
theorem w_v13 (X : Valuation τ sig (Elt Ideal)) :
    (StableHlo.after hostOps0_3 X (Proc.devRef .tc main_v13) : S64x64.Idx → EReal)
      = transpose S64x64 [1, 0] (extractStridedSlice S64x64 ![0, 192] (X (Proc.devRef .tc main_arg2)) slices_S64x256_S64x64_0_192) transposes_S64x64_S64x64_1_0 := by
  simp only [hostOps0_3]
  after_results_simp

/-- It leaves X's b1, as a row, in its buffer. -/
theorem w_v14 (X : Valuation τ sig (Elt Ideal)) :
    (StableHlo.after hostOps0_3 X (Proc.devRef .tc main_v14) : S1x64.Idx → EReal)
      = shapeCast S1x64 (X (Proc.devRef .tc main_arg3)) shapeCasts_S64_S1x64 := by
  simp only [hostOps0_3]
  after_results_simp
  rfl

/-- It leaves X's w2, transposed, in its buffer. -/
theorem w_v15 (X : Valuation τ sig (Elt Ideal)) :
    (StableHlo.after hostOps0_3 X (Proc.devRef .tc main_v15) : S64x1.Idx → EReal)
      = transpose S64x1 [1, 0] (X (Proc.devRef .tc main_arg4)) transposes_S1x64_S64x1_1_0 := by
  simp only [hostOps0_3]
  after_results_simp

/-- It leaves X's b2, as a 1×1 array, in its buffer. -/
theorem w_v16 (X : Valuation τ sig (Elt Ideal)) :
    (StableHlo.after hostOps0_3 X (Proc.devRef .tc main_v16) : S1x1.Idx → EReal)
      = shapeCast S1x1 (X (Proc.devRef .tc main_arg5)) shapeCasts_S1_S1x1 := by
  simp only [hostOps0_3]
  after_results_simp
  rfl

variable (m : (ℓ : Loc nD τ sig) → Buf (Elt Ideal) ℓ)

/-- No operation of the first three stretches writes argument 2. -/
theorem Y_arg2 (c : Dev nD) :
    StableHlo.after hostOps0_2 (StableHlo.after hostOps0_1 (StableHlo.after hostOps0 (fun b => m (c, b)))) (Proc.devRef .tc main_arg2)
      = m (c, Proc.devRef .tc main_arg2) :=
  before_last m c main_arg2
    (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))

/-- No operation of the first three stretches writes argument 3. -/
theorem Y_arg3 (c : Dev nD) :
    StableHlo.after hostOps0_2 (StableHlo.after hostOps0_1 (StableHlo.after hostOps0 (fun b => m (c, b)))) (Proc.devRef .tc main_arg3)
      = m (c, Proc.devRef .tc main_arg3) :=
  before_last m c main_arg3
    (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))

/-- No operation of the first three stretches writes argument 4. -/
theorem Y_arg4 (c : Dev nD) :
    StableHlo.after hostOps0_2 (StableHlo.after hostOps0_1 (StableHlo.after hostOps0 (fun b => m (c, b)))) (Proc.devRef .tc main_arg4)
      = m (c, Proc.devRef .tc main_arg4) :=
  before_last m c main_arg4
    (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))

/-- No operation of the first three stretches writes argument 5. -/
theorem Y_arg5 (c : Dev nD) :
    StableHlo.after hostOps0_2 (StableHlo.after hostOps0_1 (StableHlo.after hostOps0 (fun b => m (c, b)))) (Proc.devRef .tc main_arg5)
      = m (c, Proc.devRef .tc main_arg5) :=
  before_last m c main_arg5
    (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))

/-- Block 0 of w1, transposed, at (k, j). -/
theorem v7_apply (c : Dev nD) (k j : Fin 64) : (V m c main_v7 : S64x64.Idx → EReal) (ix2 k j)
    = (m ((c : Thread nD τ).loc main_arg2) : S64x256.Idx → EReal) (ix2 j (⟨k.val, by omega⟩ : Fin 256)) := by
  show (V0 m c (Proc.devRef .tc main_v7) : S64x64.Idx → EReal) (ix2 k j) = _
  rw [V0_stretches, w_v7, Y_arg2, transpose_ix2_apply]
  exact slice2_axis1_apply 0 _ _ j k ⟨k.val, by omega⟩ (Nat.zero_add _).symm

/-- Block 1 of w1, transposed, at (k, j). -/
theorem v9_apply (c : Dev nD) (k j : Fin 64) : (V m c main_v9 : S64x64.Idx → EReal) (ix2 k j)
    = (m ((c : Thread nD τ).loc main_arg2) : S64x256.Idx → EReal) (ix2 j (⟨64 + k.val, by omega⟩ : Fin 256)) := by
  show (V0 m c (Proc.devRef .tc main_v9) : S64x64.Idx → EReal) (ix2 k j) = _
  rw [V0_stretches, w_v9, Y_arg2, transpose_ix2_apply, slice2_axis1_apply 64 _ _ j k ⟨64 + k.val, by omega⟩ rfl]

/-- Block 2 of w1, transposed, at (k, j). -/
theorem v11_apply (c : Dev nD) (k j : Fin 64) : (V m c main_v11 : S64x64.Idx → EReal) (ix2 k j)
    = (m ((c : Thread nD τ).loc main_arg2) : S64x256.Idx → EReal) (ix2 j (⟨128 + k.val, by omega⟩ : Fin 256)) := by
  show (V0 m c (Proc.devRef .tc main_v11) : S64x64.Idx → EReal) (ix2 k j) = _
  rw [V0_stretches, w_v11, Y_arg2, transpose_ix2_apply, slice2_axis1_apply 128 _ _ j k ⟨128 + k.val, by omega⟩ rfl]

/-- Block 3 of w1, transposed, at (k, j). -/
theorem v13_apply (c : Dev nD) (k j : Fin 64) : (V m c main_v13 : S64x64.Idx → EReal) (ix2 k j)
    = (m ((c : Thread nD τ).loc main_arg2) : S64x256.Idx → EReal) (ix2 j (⟨192 + k.val, by omega⟩ : Fin 256)) := by
  show (V0 m c (Proc.devRef .tc main_v13) : S64x64.Idx → EReal) (ix2 k j) = _
  rw [V0_stretches, w_v13, Y_arg2, transpose_ix2_apply, slice2_axis1_apply 192 _ _ j k ⟨192 + k.val, by omega⟩ rfl]

/-- b1 as a row, at (0, j). -/
theorem v14_apply (c : Dev nD) (j : Fin 64) : (V m c main_v14 : S1x64.Idx → EReal) (ix2 (0 : Fin 1) j)
    = (m ((c : Thread nD τ).loc main_arg3) : S64.Idx → EReal) (ix1 j) := by
  show (V0 m c (Proc.devRef .tc main_v14) : S1x64.Idx → EReal) (ix2 (0 : Fin 1) j) = _
  rw [V0_stretches, w_v14, Y_arg3, shapeCast_a_1a_apply]

/-- w2 as a column, at (j, 0). -/
theorem v15_apply (c : Dev nD) (j : Fin 64) : (V m c main_v15 : S64x1.Idx → EReal) (ix2 j (0 : Fin 1))
    = (m ((c : Thread nD τ).loc main_arg4) : S1x64.Idx → EReal) (ix2 (0 : Fin 1) j) := by
  show (V0 m c (Proc.devRef .tc main_v15) : S64x1.Idx → EReal) (ix2 j (0 : Fin 1)) = _
  rw [V0_stretches, w_v15, Y_arg4, transpose_ix2_apply]

/-- b2 as a 1×1 array. -/
theorem v16_apply (c : Dev nD) : (V m c main_v16 : S1x1.Idx → EReal) (ix2 (0 : Fin 1) (0 : Fin 1))
    = (m ((c : Thread nD τ).loc main_arg5) : S1.Idx → EReal) (ix1 (0 : Fin 1)) := by
  show (V0 m c (Proc.devRef .tc main_v16) : S1x1.Idx → EReal) (ix2 (0 : Fin 1) (0 : Fin 1)) = _
  rw [V0_stretches, w_v16, Y_arg5, shapeCast_a_1a_apply]

end Cert.KernelIdeal.Host

end
-- ==== Proof.LibColumn.lean ====
/-
  Two layout readings between a vector [a] and a column [a, 1], the inverse directions of the keepdims forms:
  a column [a, 1] cast to a vector [a] (the reshape that drops a kept unit axis), and a vector [a] spread by
  `broadcast_in_dim` along `dims = [0]` into a column [a, 1] (the reshape that adds one, as jax lowers
  `keepdims=True` on the host).
-/
import Idealize.ShloMosaic.Lib.Pipeline.Value
import Idealize.ShloMosaic.Lib.ValueIdx

namespace Cert.LibColumn

open Idealize.ShloMosaic Idealize.ShloMosaic.ValueIdx

variable {α : Type}

/-- A column [a, 1] cast to a vector [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] broadcast along `dims = [0]` into a column [a, 1] reads, at (i, u), the vector's entry i. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

end Cert.LibColumn
-- ==== Proof.KernelRun.lean ====
/-
  The kernel program's run, read: when every node number of the edge list lies in −100000 … 99999, every weakly fair
  execution ends with the result buffer holding the scores of Spec.lean and the six arguments unchanged.

  The 200 blocks of the result column cover its 1000000 rows (row i is in block i / 5000), so after the run the column
  is the call's result as one function of the operand arrays (KernelArray.lean); with the operand arrays read back to
  the arguments (HostRead.lean, HostWeights.lean) row p of it is the score of edge p (KernelScore.lean); the one host
  operation after the call casts the column to a vector.
-/
import proofs.«429740_j44023414784046_1_alg».proof.Proof.Gen.KernelIdeal.Frame
import proofs.«429740_j44023414784046_1_alg».proof.Proof.KernelArray
import proofs.«429740_j44023414784046_1_alg».proof.Proof.KernelScore
import proofs.«429740_j44023414784046_1_alg».proof.Proof.HostRead
import proofs.«429740_j44023414784046_1_alg».proof.Proof.HostWeights
import proofs.«429740_j44023414784046_1_alg».proof.Proof.LibColumn
import proofs.«429740_j44023414784046_1_alg».proof.Proof.Spec
import Idealize.ShloMosaic.Lib.StableHlo.Run
import Idealize.ShloMosaic.Lib.Pipeline.Value

noncomputable section

namespace Cert.KernelIdeal.EdgeRun

open Cert.KernelIdeal Cert.KernelIdeal.Gen Cert.KernelIdeal.Arr Cert.KernelIdeal.Host
open Idealize.ShloMosaic Idealize.ShloMosaic.TcCoe Idealize.SL.Sem
open Idealize.ShloMosaic.ValueIdx Idealize.ShloMosaic.StableHlo Cert.EdgeScore
open Idealize.ShloMosaic.Pipeline (Dat)

variable (m : (ℓ : Loc nD τ sig) → Buf (Elt Ideal) ℓ) (ρ : Dev nD → PrngReg)

/-- An index of the result column is in point t's block iff each coordinate is in the block's range on its axis. -/
theorem mem_blk9 (t : Fin cfg0.N) (i : S1000000x1.Idx) :
    i ∈ ((cfg0.win 9).blk t).view.set ↔ ∀ a : Fin 2, win0_9.index t a * S5000x1.size a ≤ (i a).val
      ∧ (i a).val < win0_9.index t a * S5000x1.size a + S5000x1.size a := by
  show i ∈ ((View.whole main_v17).slice (win0_9.rect t)).set ↔ _
  rw [View.set_slice_whole, Rect.mem_set_unit]
  exact Iff.rfl

/-- Row i of the result column is in the block of point i / 5000. -/
theorem cover9 (i : S1000000x1.Idx) :
    ∃ t : Fin cfg0.N, (cfg0.win 9).flush t = true ∧ i ∈ ((cfg0.win 9).blk t).view.set := by
  have hi0 : (i 0).val < 1000000 := (i 0).isLt
  have hi1 : (i 1).val < 1 := (i 1).isLt
  have hN : cfg0.N = 200 := N_0
  refine ⟨⟨(i 0).val / 5000, by omega⟩, flush0_9 _, ?_⟩
  rw [mem_blk9]
  obtain ⟨-, -, -, -, -, -, -, -, -, ⟨e0, e1⟩⟩ := idx_facts ⟨(i 0).val / 5000, by omega⟩
  intro a
  match a with
  | ⟨0, _⟩ =>
    show win0_9.index _ 0 * 5000 ≤ (i 0).val ∧ (i 0).val < win0_9.index _ 0 * 5000 + 5000
    rw [e0]
    show (i 0).val / 5000 * 5000 ≤ (i 0).val ∧ (i 0).val < (i 0).val / 5000 * 5000 + 5000
    omega
  | ⟨1, _⟩ =>
    show win0_9.index _ 1 * 1 ≤ (i 1).val ∧ (i 1).val < win0_9.index _ 1 * 1 + 1
    rw [e1]
    omega

/-- THE RESULT COLUMN after the run is the call's result. -/
theorem final9 (c : Dev nD) : (dats m 0 c).arrAt 9 cfg0.N
    = callValue (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6)) (V m c (Pipeline.arrRef spec0 7)) (V m c (Pipeline.arrRef spec0 8)) :=
  (dats m 0 c).arrAt_eq_of_cover 9 _ (fun t _ => flushed_eq m c t) cover9

/-- The call's operand arrays are the buffers the host operations before it wrote. -/
theorem arr0 (c : Dev nD) (i : S1000000x64.Idx) :
    (V m c (Pipeline.arrRef spec0 0) : S1000000x64.Idx → EReal) i = (V m c main_v4 : S1000000x64.Idx → EReal) i := rfl
theorem arr1 (c : Dev nD) (i : S1000000x64.Idx) :
    (V m c (Pipeline.arrRef spec0 1) : S1000000x64.Idx → EReal) i = (V m c main_v5 : S1000000x64.Idx → EReal) i := rfl
theorem arr2 (c : Dev nD) (i : S64x64.Idx) :
    (V m c (Pipeline.arrRef spec0 2) : S64x64.Idx → EReal) i = (V m c main_v7 : S64x64.Idx → EReal) i := rfl
theorem arr3 (c : Dev nD) (i : S64x64.Idx) :
    (V m c (Pipeline.arrRef spec0 3) : S64x64.Idx → EReal) i = (V m c main_v9 : S64x64.Idx → EReal) i := rfl
theorem arr4 (c : Dev nD) (i : S64x64.Idx) :
    (V m c (Pipeline.arrRef spec0 4) : S64x64.Idx → EReal) i = (V m c main_v11 : S64x64.Idx → EReal) i := rfl
theorem arr5 (c : Dev nD) (i : S64x64.Idx) :
    (V m c (Pipeline.arrRef spec0 5) : S64x64.Idx → EReal) i = (V m c main_v13 : S64x64.Idx → EReal) i := rfl
theorem arr6 (c : Dev nD) (i : S1x64.Idx) :
    (V m c (Pipeline.arrRef spec0 6) : S1x64.Idx → EReal) i = (V m c main_v14 : S1x64.Idx → EReal) i := rfl
theorem arr7 (c : Dev nD) (i : S64x1.Idx) :
    (V m c (Pipeline.arrRef spec0 7) : S64x1.Idx → EReal) i = (V m c main_v15 : S64x1.Idx → EReal) i := rfl
theorem arr8 (c : Dev nD) (i : S1x1.Idx) :
    (V m c (Pipeline.arrRef spec0 8) : S1x1.Idx → EReal) i = (V m c main_v16 : S1x1.Idx → EReal) i := rfl

/-- Row p of the call's result is the score of edge p. -/
theorem row_score (c : Dev nD)
    (hin : ∀ i : S2x1000000.Idx, (-100000 : ℤ) ≤ ((m ((c : Thread nD τ).loc main_arg1) : IVec S2x1000000 32) i).toInt
      ∧ ((m ((c : Thread nD τ).loc main_arg1) : IVec S2x1000000 32) i).toInt < 100000)
    (p : Fin 1000000) :
    rowValue (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6)) (V m c (Pipeline.arrRef spec0 7)) (V m c (Pipeline.arrRef spec0 8)) p
      = score (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) p :=
  rowValue_eq_score _ _ _ _ _ _ _ _ _ _ _ _ _ _ _ p
    (fun k => (arr0 m c _).trans (v4_apply m c hin p k)) (fun k => (arr1 m c _).trans (v5_apply m c hin p k))
    (fun k j => (arr2 m c _).trans (v7_apply m c k j)) (fun k j => (arr3 m c _).trans (v9_apply m c k j))
    (fun k j => (arr4 m c _).trans (v11_apply m c k j)) (fun k j => (arr5 m c _).trans (v13_apply m c k j))
    (fun j => (arr6 m c _).trans (v14_apply m c j)) (fun j => (arr7 m c _).trans (v15_apply m c j))
    ((arr8 m c _).trans (v16_apply m c))

/-- The one host operation after the call casts the result column to the result vector. -/
theorem tail_eq (c : Dev nD) :
    (Pipeline.afterTail₀ cfgs (dats m) 0 (V0 m) [hostOps1] c main_v18 : S1000000.Idx → EReal)
      = shapeCast S1000000 ((dats m 0 c).arrAt 9 cfg0.N : S1000000x1.Idx → EReal) shapeCasts_S1000000x1_S1000000 := by
  unfold Pipeline.afterTail₀
  simp only [List.flatten_cons, List.flatten_nil, List.append_nil, hostOps1]
  after_results
  have hw := Pipeline.withArrays_arr spec0 launch0.win.arr_inj c (V0 m c) (fun w => (dats m 0 c).arrAt w cfg0.N) 9
  funext i
  exact congrArg (fun X : S1000000x1.Idx → EReal => shapeCast S1000000 X shapeCasts_S1000000x1_S1000000 i) hw

/-- THE RESULT VECTOR is the scores. -/
theorem result_eq (c : Dev nD)
    (hin : ∀ i : S2x1000000.Idx, (-100000 : ℤ) ≤ ((m ((c : Thread nD τ).loc main_arg1) : IVec S2x1000000 32) i).toInt
      ∧ ((m ((c : Thread nD τ).loc main_arg1) : IVec S2x1000000 32) i).toInt < 100000) :
    shapeCast S1000000 ((dats m 0 c).arrAt 9 cfg0.N : S1000000x1.Idx → EReal) shapeCasts_S1000000x1_S1000000
      = scores (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨p, rfl⟩ : ∃ p : Fin 1000000, i = ix1 p := ⟨i 0, eq_ix1 i⟩
  rw [Cert.LibColumn.shapeCast_a1_a_apply, final9]
  exact (callValue_apply _ _ _ _ _ _ _ _ _ p).trans (row_score m c hin p)

/-- THE RUN, READ. -/
theorem run (hin : ∀ (c : Dev nD) (i : S2x1000000.Idx),
      (-100000 : ℤ) ≤ ((m ((c : Thread nD τ).loc main_arg1) : IVec S2x1000000 32) i).toInt
      ∧ ((m ((c : Thread nD τ).loc main_arg1) : IVec S2x1000000 32) i).toInt < 100000) :
    θ_run defs (onTc (τ := τ) (main (F := Ideal))) ⟨m, fun _ => 0, ρ⟩ fun r => ∀ c : Dev nD,
      r.2.mem ((c : Thread nD τ).loc main_v18)
        = scores (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v18 (Pipeline.mem_restRefs_of main_v18 (by decide) (by decide))).trans
        ((tail_eq m c).trans (result_eq m c (hin c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.EdgeRun

end
-- ==== Proof.lean ====
/-
  The edge classifier: the Pallas kernel program against its jnp reference, on the extended reals.

  Both programs score every edge p of an edge list over a table h of 100000 node rows: with u, v the rows of h that the
  edge's two node numbers name, the 256 features u, v, |u − v|, u · v go through a linear layer (w1, b1), a rectifier
  and a second linear layer (w2, b2) to one number (Spec.lean's `score`). The reference looks the rows up with plain
  indexing (wrap a negative node number, gather, which clamps), concatenates the four feature groups and multiplies by
  w1 transposed; the kernel program looks them up with `jnp.take` (the same wrap and gather, but a row whose wrapped
  node number falls outside 0 … 99999 is replaced by the not-a-number pattern), cuts w1 into its four blocks of 64
  columns, and a pallas_call over 200 blocks of 5000 edges forms the four partial products, adds them, and applies
  the rest. The precondition keeps every node number of the edge list in −100000 … 99999, the range in which the
  reference's indexing is defined; there the kernel's replacement never happens and the two lookups agree. A sum over
  the 256 concatenated columns is the sum of the four groups' sums (commutativity and associativity of + on the
  extended reals; no finiteness is used), so both programs compute `score`.

  The modules: Spec (the score; the regrouping of the sum), RefValue (the reference's result is the score), PreRead
  (the precondition read back), WrapRange (a wrapped node number is in range), HostPrefix / HostTake / HostRead /
  HostWeights (the kernel program's host operations before the call, read at an entry), KernelBody (one grid point's
  stores at an entry), KernelArray (the call's result array as one function of its operand arrays), KernelScore and
  KernelRun (the kernel program's run ends at the scores).
-/
import proofs.«429740_j44023414784046_1_alg».proof.Defs
import proofs.«429740_j44023414784046_1_alg».proof.Proof.Gen.Kernel
import proofs.«429740_j44023414784046_1_alg».proof.Proof.Gen.Kernel.Skeleton
import proofs.«429740_j44023414784046_1_alg».proof.Proof.Gen.Kernel.Launch
import proofs.«429740_j44023414784046_1_alg».proof.Proof.Gen.Kernel.Points
import proofs.«429740_j44023414784046_1_alg».proof.Proof.Gen.Kernel.Frame
import proofs.«429740_j44023414784046_1_alg».proof.Proof.Gen.KernelIdeal
import proofs.«429740_j44023414784046_1_alg».proof.Proof.Gen.KernelIdeal.Skeleton
import proofs.«429740_j44023414784046_1_alg».proof.Proof.Gen.KernelIdeal.Launch
import proofs.«429740_j44023414784046_1_alg».proof.Proof.Gen.KernelIdeal.Points
import proofs.«429740_j44023414784046_1_alg».proof.Proof.Gen.KernelIdeal.Frame
import proofs.«429740_j44023414784046_1_alg».proof.Proof.Gen.ReferenceIdeal
import proofs.«429740_j44023414784046_1_alg».proof.Proof.Gen.ReferenceIdeal.Run
import proofs.«429740_j44023414784046_1_alg».proof.Proof.Gen.ReferenceIdeal.Read
import proofs.«429740_j44023414784046_1_alg».proof.Proof.Gen.Pre_finite_inputs
import proofs.«429740_j44023414784046_1_alg».proof.Proof.RefValue
import proofs.«429740_j44023414784046_1_alg».proof.Proof.PreRead
import proofs.«429740_j44023414784046_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the kernel program on the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments and satisfy the precondition, both programs end at the scores. -/
theorem algebraic : Cert.algebraic_KernelIdeal_ReferenceIdeal := by
  intro m ρ m' ρ' hpre hagree
  refine ⟨fun c => Cert.EdgeScore.scores
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)), ?_, ?_⟩
  · exact Cert.KernelIdeal.EdgeRun.run m ρ fun c i => Cert.PreRead.ids_in_range _ _ _ _ _ _ (hpre c) i
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.ReferenceIdeal.RefValue.result_eq, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
